-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v90)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v90) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v99) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S100000 : Shape := ⟨1, ![100000]⟩
abbrev S128x128 : Shape := ⟨2, ![128, 128]⟩
abbrev S128 : Shape := ⟨1, ![128]⟩
abbrev S128x3 : Shape := ⟨2, ![128, 3]⟩
abbrev S3 : Shape := ⟨1, ![3]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x3 : S_.BroadcastsInDim S128x3 (![] : Fin 0 → Fin S128x3.rank)
  reducesTo_S128x3_S_d0_1 : S128x3.ReducesTo [0, 1] S_
  bcast_S_S3 : S_.BroadcastsInDim S3 (![] : Fin 0 → Fin S3.rank)
  reducesTo_S3_S_d0 : S3.ReducesTo [0] S_

variable [Facts]

def fn_part2 {F : FTy → Type} [FloatOps F] (main_arg9 : FVec F S128x3 .f32) (main_arg10 : FVec F S3 .f32) (main_v33 : IVec S_ 1) : IVec S_ 1 :=
  let main_v34 : FVec F S128x3 .f32 := Host.absf main_arg9
  let main_cst_12 : FVec F S_ .f32 := constant S_ .f32 0x7F800000#32
  let main_v35 : FVec F S128x3 .f32 := broadcastInDim S128x3 ![] bcast_S_S128x3 main_cst_12
  let main_v36 : IVec S128x3 1 := cmpf .olt main_v34 main_v35
  let main_c_13 : IVec S_ 1 := constantI S_ 1 1#1
  let main_v37 : IVec S_ 1 := (fun x v => Host.reduce IntOp.andi x v reducesTo_S128x3_S_d0_1 h_S_) main_v36 main_c_13
  let main_v38 : IVec S_ 1 := andi main_v33 main_v37
  let main_v39 : FVec F S3 .f32 := Host.absf main_arg10
  let main_cst_14 : FVec F S_ .f32 := constant S_ .f32 0x7F800000#32
  let main_v40 : FVec F S3 .f32 := broadcastInDim S3 ![] bcast_S_S3 main_cst_14
  let main_v41 : IVec S3 1 := cmpf .olt main_v39 main_v40
  let main_c_15 : IVec S_ 1 := constantI S_ 1 1#1
  let main_v42 : IVec S_ 1 := (fun x v => Host.reduce IntOp.andi x v reducesTo_S3_S_d0 h_S_) main_v41 main_c_15
  let main_v43 : IVec S_ 1 := andi main_v38 main_v42
  main_v43

def fn_part1 {F : FTy → Type} [FloatOps F] (main_arg6 : FVec F S128 .f32) (main_arg7 : FVec F S128x128 .f32) (main_arg8 : FVec F S128 .f32) (main_arg9 : FVec F S128x3 .f32) (main_arg10 : FVec F S3 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg6
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x128 .f32 := Host.absf main_arg7
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128 .f32 := Host.absf main_arg8
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg9 main_arg10 main_v33

def fn {F : FTy → Type} [FloatOps F] (main_arg0 : FVec F S100000x128 .f32) (main_arg1 : IVec S2x1600000 32) (main_arg2 : IVec S100000 32) (main_arg3 : FVec F S128x128 .f32) (main_arg4 : FVec F S128 .f32) (main_arg5 : FVec F S128x128 .f32) (main_arg6 : FVec F S128 .f32) (main_arg7 : FVec F S128x128 .f32) (main_arg8 : FVec F S128 .f32) (main_arg9 : FVec F S128x3 .f32) (main_arg10 : FVec F S3 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg3
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg4
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg5
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg6 main_arg7 main_arg8 main_arg9 main_arg10 main_v13 main_v16
-- ==== Kernel.lean ====
abbrev S100000x128 : Shape := ⟨2, ![100000, 128]⟩
abbrev S2x1600000 : Shape := ⟨2, ![2, 1600000]⟩
abbrev S100000 : Shape := ⟨1, ![100000]⟩
abbrev S128x128 : Shape := ⟨2, ![128, 128]⟩
abbrev S128 : Shape := ⟨1, ![128]⟩
abbrev S128x3 : Shape := ⟨2, ![128, 3]⟩
abbrev S3 : Shape := ⟨1, ![3]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S1700000x128 : Shape := ⟨2, ![1700000, 128]⟩
abbrev S1x128 : Shape := ⟨2, ![1, 128]⟩
abbrev S10000x128 : Shape := ⟨2, ![10000, 128]⟩
abbrev S64x128 : Shape := ⟨2, ![64, 128]⟩
abbrev S100000x1 : Shape := ⟨2, ![100000, 1]⟩
abbrev S64 : Shape := ⟨1, ![64]⟩
abbrev S64x1 : Shape := ⟨2, ![64, 1]⟩
abbrev S64x3 : Shape := ⟨2, ![64, 3]⟩
abbrev S1x3 : Shape := ⟨2, ![1, 3]⟩

abbrev nBuf : Space → Nat
  | .hbm => 125
  | .vmem => 18
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S100000, .i32⟩
  | .hbm, ⟨3, _⟩ => ⟨S128x128, .f32⟩
  | .hbm, ⟨4, _⟩ => ⟨S128, .f32⟩
  | .hbm, ⟨5, _⟩ => ⟨S128x128, .f32⟩
  | .hbm, ⟨6, _⟩ => ⟨S128, .f32⟩
  | .hbm, ⟨7, _⟩ => ⟨S128x128, .f32⟩
  | .hbm, ⟨8, _⟩ => ⟨S128, .f32⟩
  | .hbm, ⟨9, _⟩ => ⟨S128x3, .f32⟩
  | .hbm, ⟨10, _⟩ => ⟨S3, .f32⟩
  | .hbm, ⟨11, _⟩ => ⟨S1x1600000, .i32⟩
  | .hbm, ⟨12, _⟩ => ⟨S1600000, .i32⟩
  | .hbm, ⟨13, _⟩ => ⟨S1x1600000, .i32⟩
  | .hbm, ⟨14, _⟩ => ⟨S1600000, .i32⟩
  | .hbm, ⟨15, _⟩ => ⟨S100000, .i32⟩
  | .hbm, ⟨16, _⟩ => ⟨S1700000, .i32⟩
  | .hbm, ⟨17, _⟩ => ⟨S1700000, .i32⟩
  | .hbm, ⟨18, _⟩ => ⟨S_, .f32⟩
  | .hbm, ⟨19, _⟩ => ⟨S1700000, .f32⟩
  | .hbm, ⟨20, _⟩ => ⟨S_, .f32⟩
  | .hbm, ⟨21, _⟩ => ⟨S100000, .f32⟩
  | .hbm, ⟨22, _⟩ => ⟨S1700000x1, .i32⟩
  | .hbm, ⟨23, _⟩ => ⟨S100000, .f32⟩
  | .hbm, ⟨24, _⟩ => ⟨S_, .f32⟩
  | .hbm, ⟨25, _⟩ => ⟨S100000, .f32⟩
  | .hbm, ⟨26, _⟩ => ⟨S100000, .i1⟩
  | .hbm, ⟨27, _⟩ => ⟨S100000, .f32⟩
  | .hbm, ⟨28, _⟩ => ⟨S_, .f32⟩
  | .hbm, ⟨29, _⟩ => ⟨S_, .f32⟩
  | .hbm, ⟨30, _⟩ => ⟨S100000, .f32⟩
  | .hbm, ⟨31, _⟩ => ⟨S100000, .f32⟩
  | .hbm, ⟨32, _⟩ => ⟨S_, .i32⟩
  | .hbm, ⟨33, _⟩ => ⟨S1700000, .i32⟩
  | .hbm, ⟨34, _⟩ => ⟨S1700000, .i1⟩
  | .hbm, ⟨35, _⟩ => ⟨S_, .i32⟩
  | .hbm, ⟨36, _⟩ => ⟨S1700000, .i32⟩
  | .hbm, ⟨37, _⟩ => ⟨S1700000, .i32⟩
  | .hbm, ⟨38, _⟩ => ⟨S1700000, .i32⟩
  | .hbm, ⟨39, _⟩ => ⟨S1700000x1, .i32⟩
  | .hbm, ⟨40, _⟩ => ⟨S1700000, .f32⟩
  | .hbm, ⟨41, _⟩ => ⟨S_, .i32⟩
  | .hbm, ⟨42, _⟩ => ⟨S1700000, .i32⟩
  | .hbm, ⟨43, _⟩ => ⟨S1700000, .i1⟩
  | .hbm, ⟨44, _⟩ => ⟨S_, .i32⟩
  | .hbm, ⟨45, _⟩ => ⟨S1700000, .i32⟩
  | .hbm, ⟨46, _⟩ => ⟨S1700000, .i32⟩
  | .hbm, ⟨47, _⟩ => ⟨S1700000, .i32⟩
  | .hbm, ⟨48, _⟩ => ⟨S1700000x1, .i32⟩
  | .hbm, ⟨49, _⟩ => ⟨S1700000, .f32⟩
  | .hbm, ⟨50, _⟩ => ⟨S1700000, .f32⟩
  | .hbm, ⟨51, _⟩ => ⟨S_, .i32⟩
  | .hbm, ⟨52, _⟩ => ⟨S1700000, .i32⟩
  | .hbm, ⟨53, _⟩ => ⟨S1700000, .i1⟩
  | .hbm, ⟨54, _⟩ => ⟨S_, .i32⟩
  | .hbm, ⟨55, _⟩ => ⟨S1700000, .i32⟩
  | .hbm, ⟨56, _⟩ => ⟨S1700000, .i32⟩
  | .hbm, ⟨57, _⟩ => ⟨S1700000, .i32⟩
  | .hbm, ⟨58, _⟩ => ⟨S1700000x1, .i32⟩
  | .hbm, ⟨59, _⟩ => ⟨S1700000x128, .f32⟩
  | .hbm, ⟨60, _⟩ => ⟨S1700000x1, .f32⟩
  | .hbm, ⟨61, _⟩ => ⟨S1700000x128, .f32⟩
  | .hbm, ⟨62, _⟩ => ⟨S1700000x128, .f32⟩
  | .hbm, ⟨63, _⟩ => ⟨S_, .f32⟩
  | .hbm, ⟨64, _⟩ => ⟨S100000x128, .f32⟩
  | .hbm, ⟨65, _⟩ => ⟨S1700000x1, .i32⟩
  | .hbm, ⟨66, _⟩ => ⟨S100000x128, .f32⟩
  | .hbm, ⟨67, _⟩ => ⟨S1x128, .f32⟩
  | .hbm, ⟨68, _⟩ => ⟨S100000x128, .f32⟩
  | .hbm, ⟨69, _⟩ => ⟨S_, .i32⟩
  | .hbm, ⟨70, _⟩ => ⟨S1700000, .i32⟩
  | .hbm, ⟨71, _⟩ => ⟨S1700000, .i1⟩
  | .hbm, ⟨72, _⟩ => ⟨S_, .i32⟩
  | .hbm, ⟨73, _⟩ => ⟨S1700000, .i32⟩
  | .hbm, ⟨74, _⟩ => ⟨S1700000, .i32⟩
  | .hbm, ⟨75, _⟩ => ⟨S1700000, .i32⟩
  | .hbm, ⟨76, _⟩ => ⟨S1700000x1, .i32⟩
  | .hbm, ⟨77, _⟩ => ⟨S1700000x128, .f32⟩
  | .hbm, ⟨78, _⟩ => ⟨S1700000x1, .f32⟩
  | .hbm, ⟨79, _⟩ => ⟨S1700000x128, .f32⟩
  | .hbm, ⟨80, _⟩ => ⟨S1700000x128, .f32⟩
  | .hbm, ⟨81, _⟩ => ⟨S_, .f32⟩
  | .hbm, ⟨82, _⟩ => ⟨S100000x128, .f32⟩
  | .hbm, ⟨83, _⟩ => ⟨S1700000x1, .i32⟩
  | .hbm, ⟨84, _⟩ => ⟨S100000x128, .f32⟩
  | .hbm, ⟨85, _⟩ => ⟨S1x128, .f32⟩
  | .hbm, ⟨86, _⟩ => ⟨S100000x128, .f32⟩
  | .hbm, ⟨87, _⟩ => ⟨S_, .i32⟩
  | .hbm, ⟨88, _⟩ => ⟨S1700000, .i32⟩
  | .hbm, ⟨89, _⟩ => ⟨S1700000, .i1⟩
  | .hbm, ⟨90, _⟩ => ⟨S_, .i32⟩
  | .hbm, ⟨91, _⟩ => ⟨S1700000, .i32⟩
  | .hbm, ⟨92, _⟩ => ⟨S1700000, .i32⟩
  | .hbm, ⟨93, _⟩ => ⟨S1700000, .i32⟩
  | .hbm, ⟨94, _⟩ => ⟨S1700000x1, .i32⟩
  | .hbm, ⟨95, _⟩ => ⟨S1700000x128, .f32⟩
  | .hbm, ⟨96, _⟩ => ⟨S1700000x1, .f32⟩
  | .hbm, ⟨97, _⟩ => ⟨S1700000x128, .f32⟩
  | .hbm, ⟨98, _⟩ => ⟨S1700000x128, .f32⟩
  | .hbm, ⟨99, _⟩ => ⟨S_, .f32⟩
  | .hbm, ⟨100, _⟩ => ⟨S100000x128, .f32⟩
  | .hbm, ⟨101, _⟩ => ⟨S1700000x1, .i32⟩
  | .hbm, ⟨102, _⟩ => ⟨S100000x128, .f32⟩
  | .hbm, ⟨103, _⟩ => ⟨S1x128, .f32⟩
  | .hbm, ⟨104, _⟩ => ⟨S100000x128, .f32⟩
  | .hbm, ⟨105, _⟩ => ⟨S_, .f32⟩
  | .hbm, ⟨106, _⟩ => ⟨S64x128, .f32⟩
  | .hbm, ⟨107, _⟩ => ⟨S100000x1, .i32⟩
  | .hbm, ⟨108, _⟩ => ⟨S64x128, .f32⟩
  | .hbm, ⟨109, _⟩ => ⟨S_, .f32⟩
  | .hbm, ⟨110, _⟩ => ⟨S100000, .f32⟩
  | .hbm, ⟨111, _⟩ => ⟨S_, .f32⟩
  | .hbm, ⟨112, _⟩ => ⟨S64, .f32⟩
  | .hbm, ⟨113, _⟩ => ⟨S100000x1, .i32⟩
  | .hbm, ⟨114, _⟩ => ⟨S64, .f32⟩
  | .hbm, ⟨115, _⟩ => ⟨S_, .f32⟩
  | .hbm, ⟨116, _⟩ => ⟨S64, .f32⟩
  | .hbm, ⟨117, _⟩ => ⟨S64, .f32⟩
  | .hbm, ⟨118, _⟩ => ⟨S64x1, .f32⟩
  | .hbm, ⟨119, _⟩ => ⟨S64x128, .f32⟩
  | .hbm, ⟨120, _⟩ => ⟨S64x128, .f32⟩
  | .hbm, ⟨121, _⟩ => ⟨S64x3, .f32⟩
  | .hbm, ⟨122, _⟩ => ⟨S1x3, .f32⟩
  | .hbm, ⟨123, _⟩ => ⟨S64x3, .f32⟩
  | .hbm, ⟨124, _⟩ => ⟨S64x3, .f32⟩
  | .local _ .vmem, ⟨0, _⟩ => ⟨S10000x128, .f32⟩
  | .local _ .vmem, ⟨1, _⟩ => ⟨S10000x128, .f32⟩
  | .local _ .vmem, ⟨2, _⟩ => ⟨S128x128, .f32⟩
  | .local _ .vmem, ⟨3, _⟩ => ⟨S1x128, .f32⟩
  | .local _ .vmem, ⟨4, _⟩ => ⟨S10000x128, .f32⟩
  | .local _ .vmem, ⟨5, _⟩ => ⟨S10000x128, .f32⟩
  | .local _ .vmem, ⟨6, _⟩ => ⟨S10000x128, .f32⟩
  | .local _ .vmem, ⟨7, _⟩ => ⟨S10000x128, .f32⟩
  | .local _ .vmem, ⟨8, _⟩ => ⟨S128x128, .f32⟩
  | .local _ .vmem, ⟨9, _⟩ => ⟨S1x128, .f32⟩
  | .local _ .vmem, ⟨10, _⟩ => ⟨S10000x128, .f32⟩
  | .local _ .vmem, ⟨11, _⟩ => ⟨S10000x128, .f32⟩
  | .local _ .vmem, ⟨12, _⟩ => ⟨S10000x128, .f32⟩
  | .local _ .vmem, ⟨13, _⟩ => ⟨S10000x128, .f32⟩
  | .local _ .vmem, ⟨14, _⟩ => ⟨S128x128, .f32⟩
  | .local _ .vmem, ⟨15, _⟩ => ⟨S1x128, .f32⟩
  | .local _ .vmem, ⟨16, _⟩ => ⟨S10000x128, .f32⟩
  | .local _ .vmem, ⟨17, _⟩ => ⟨S10000x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_cst : Ref sig .tc := ⟨.hbm, 18, rfl⟩
abbrev main_v7 : Ref sig .tc := ⟨.hbm, 19, rfl⟩
abbrev main_cst_0 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_cst_1 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_cst_2 : Ref sig .tc := ⟨.hbm, 28, rfl⟩
abbrev main_call0_v0 : Ref sig .tc := ⟨.hbm, 29, rfl⟩
abbrev main_call0_v1 : Ref sig .tc := ⟨.hbm, 30, rfl⟩
abbrev main_v14 : Ref sig .tc := ⟨.hbm, 31, rfl⟩
abbrev main_c : Ref sig .tc := ⟨.hbm, 32, rfl⟩
abbrev main_v15 : Ref sig .tc := ⟨.hbm, 33, rfl⟩
abbrev main_v16 : Ref sig .tc := ⟨.hbm, 34, rfl⟩
abbrev main_c_3 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_c_4 : Ref sig .tc := ⟨.hbm, 41, rfl⟩
abbrev main_v22 : Ref sig .tc := ⟨.hbm, 42, rfl⟩
abbrev main_v23 : Ref sig .tc := ⟨.hbm, 43, rfl⟩
abbrev main_c_5 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_c_6 : Ref sig .tc := ⟨.hbm, 51, rfl⟩
abbrev main_v30 : Ref sig .tc := ⟨.hbm, 52, rfl⟩
abbrev main_v31 : Ref sig .tc := ⟨.hbm, 53, rfl⟩
abbrev main_c_7 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_cst_8 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_c_9 : Ref sig .tc := ⟨.hbm, 69, rfl⟩
abbrev main_v45 : Ref sig .tc := ⟨.hbm, 70, rfl⟩
abbrev main_v46 : Ref sig .tc := ⟨.hbm, 71, rfl⟩
abbrev main_c_10 : Ref sig .tc := ⟨.hbm, 72, rfl⟩
abbrev main_v47 : Ref sig .tc := ⟨.hbm, 73, rfl⟩
abbrev main_v48 : Ref sig .tc := ⟨.hbm, 74, rfl⟩
abbrev main_v49 : Ref sig .tc := ⟨.hbm, 75, rfl⟩
abbrev main_v50 : Ref sig .tc := ⟨.hbm, 76, rfl⟩
abbrev main_v51 : Ref sig .tc := ⟨.hbm, 77, rfl⟩
abbrev main_v52 : Ref sig .tc := ⟨.hbm, 78, rfl⟩
abbrev main_v53 : Ref sig .tc := ⟨.hbm, 79, rfl⟩
abbrev main_v54 : Ref sig .tc := ⟨.hbm, 80, rfl⟩
abbrev main_cst_11 : Ref sig .tc := ⟨.hbm, 81, rfl⟩
abbrev main_v55 : Ref sig .tc := ⟨.hbm, 82, rfl⟩
abbrev main_v56 : Ref sig .tc := ⟨.hbm, 83, rfl⟩
abbrev main_v57 : Ref sig .tc := ⟨.hbm, 84, rfl⟩
abbrev main_v58 : Ref sig .tc := ⟨.hbm, 85, rfl⟩
abbrev main_v59 : Ref sig .tc := ⟨.hbm, 86, rfl⟩
abbrev main_c_12 : Ref sig .tc := ⟨.hbm, 87, rfl⟩
abbrev main_v60 : Ref sig .tc := ⟨.hbm, 88, rfl⟩
abbrev main_v61 : Ref sig .tc := ⟨.hbm, 89, rfl⟩
abbrev main_c_13 : Ref sig .tc := ⟨.hbm, 90, rfl⟩
abbrev main_v62 : Ref sig .tc := ⟨.hbm, 91, rfl⟩
abbrev main_v63 : Ref sig .tc := ⟨.hbm, 92, rfl⟩
abbrev main_v64 : Ref sig .tc := ⟨.hbm, 93, rfl⟩
abbrev main_v65 : Ref sig .tc := ⟨.hbm, 94, rfl⟩
abbrev main_v66 : Ref sig .tc := ⟨.hbm, 95, rfl⟩
abbrev main_v67 : Ref sig .tc := ⟨.hbm, 96, rfl⟩
abbrev main_v68 : Ref sig .tc := ⟨.hbm, 97, rfl⟩
abbrev main_v69 : Ref sig .tc := ⟨.hbm, 98, rfl⟩
abbrev main_cst_14 : Ref sig .tc := ⟨.hbm, 99, rfl⟩
abbrev main_v70 : Ref sig .tc := ⟨.hbm, 100, rfl⟩
abbrev main_v71 : Ref sig .tc := ⟨.hbm, 101, rfl⟩
abbrev main_v72 : Ref sig .tc := ⟨.hbm, 102, rfl⟩
abbrev main_v73 : Ref sig .tc := ⟨.hbm, 103, rfl⟩
abbrev main_v74 : Ref sig .tc := ⟨.hbm, 104, rfl⟩
abbrev main_cst_15 : Ref sig .tc := ⟨.hbm, 105, rfl⟩
abbrev main_v75 : Ref sig .tc := ⟨.hbm, 106, rfl⟩
abbrev main_v76 : Ref sig .tc := ⟨.hbm, 107, rfl⟩
abbrev main_v77 : Ref sig .tc := ⟨.hbm, 108, rfl⟩
abbrev main_cst_16 : Ref sig .tc := ⟨.hbm, 109, rfl⟩
abbrev main_v78 : Ref sig .tc := ⟨.hbm, 110, rfl⟩
abbrev main_cst_17 : Ref sig .tc := ⟨.hbm, 111, rfl⟩
abbrev main_v79 : Ref sig .tc := ⟨.hbm, 112, rfl⟩
abbrev main_v80 : Ref sig .tc := ⟨.hbm, 113, rfl⟩
abbrev main_v81 : Ref sig .tc := ⟨.hbm, 114, rfl⟩
abbrev main_cst_18 : Ref sig .tc := ⟨.hbm, 115, rfl⟩
abbrev main_v82 : Ref sig .tc := ⟨.hbm, 116, rfl⟩
abbrev main_v83 : Ref sig .tc := ⟨.hbm, 117, rfl⟩
abbrev main_v84 : Ref sig .tc := ⟨.hbm, 118, rfl⟩
abbrev main_v85 : Ref sig .tc := ⟨.hbm, 119, rfl⟩
abbrev main_v86 : Ref sig .tc := ⟨.hbm, 120, rfl⟩
abbrev main_v87 : Ref sig .tc := ⟨.hbm, 121, rfl⟩
abbrev main_v88 : Ref sig .tc := ⟨.hbm, 122, rfl⟩
abbrev main_v89 : Ref sig .tc := ⟨.hbm, 123, rfl⟩
abbrev main_v90 : Ref sig .tc := ⟨.hbm, 124, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg3_1 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg2_0 : Ref sig .tc := ⟨.vmem, 15, rfl⟩
abbrev cc2_stg3_0 : Ref sig .tc := ⟨.vmem, 16, rfl⟩
abbrev cc2_stg3_1 : Ref sig .tc := ⟨.vmem, 17, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem3_0 : DmaSem sig := 10
abbrev cc1_sem3_1 : DmaSem sig := 11
abbrev cc2_sem0_0 : DmaSem sig := 12
abbrev cc2_sem0_1 : DmaSem sig := 13
abbrev cc2_sem1_0 : DmaSem sig := 14
abbrev cc2_sem2_0 : DmaSem sig := 15
abbrev cc2_sem3_0 : DmaSem sig := 16
abbrev cc2_sem3_1 : DmaSem sig := 17

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S10000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S128x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S10000x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S10000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S10000x128 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  concatenates_S1600000_S100000_S1700000_d0 : Shape.Concatenates [S1600000, S100000] S1700000 0
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  shapeCasts_S128_S1x128 : S128.ShapeCasts S1x128
  inb_S10000x128_S10000x128_0_0 : ∀ a, (![0, 0] : Fin 2 → Nat) a + S10000x128.size a ≤ S10000x128.size a
  h_S10000x128 : 0 < S10000x128.numel
  shapeCasts_S10000x128_S10000x128 : S10000x128.ShapeCasts S10000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S10000x128 : S1x128.Broadcasts S10000x128
  bcast_S_S64x128 : S_.BroadcastsInDim S64x128 (![] : Fin 0 → Fin S64x128.rank)
  bcast_S100000_S100000x1_0 : S100000.BroadcastsInDim S100000x1 (![0] : Fin 1 → Fin S100000x1.rank)
  bcast_S_S64 : S_.BroadcastsInDim S64 (![] : Fin 0 → Fin S64.rank)
  bcast_S64_S64x1_0 : S64.BroadcastsInDim S64x1 (![0] : Fin 1 → Fin S64x1.rank)
  bcast_S64x1_S64x128_0_1 : S64x1.BroadcastsInDim S64x128 (![0, 1] : Fin 2 → Fin S64x128.rank)
  bcast_S3_S1x3_1 : S3.BroadcastsInDim S1x3 (![1] : Fin 1 → Fin S1x3.rank)
  bcast_S1x3_S64x3_0_1 : S1x3.BroadcastsInDim S64x3 (![0, 1] : Fin 2 → Fin S64x3.rank)
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  dot_S10000x128_S128x128_S10000x128_1_0_0_1_n_n_wf : DotDims.WF S10000x128 S128x128 S10000x128 [1] [0] [0] [1] [] []
  scatter_S64x128_S100000x1_S100000x128_1_0_0_1_wf : ScatterDims.WF S64x128 S100000x1 S100000x128 [1] [0] [0] 1
  scatter_S64_S100000x1_S100000_n_0_0_1_wf : ScatterDims.WF S64 S100000x1 S100000 [] [0] [0] 1
  dot_S64x128_S128x3_S64x3_1_0_0_1_n_n_wf : DotDims.WF S64x128 S128x3 S64x3 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x128.size a ≤ S100000x128.size a
  hwx0_0 : ∀ i : grid0.Coords, EltTy.bits .f32 = 32 ∨ (Rect.block (s := S100000x128) S10000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S10000x128.size a ≤ S100000x128.size a
  hwx0_3 : ∀ i : grid0.Coords, EltTy.bits .f32 = 32 ∨ (Rect.block (s := S100000x128) S10000x128.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x128.size a ≤ S100000x128.size a
  hwx1_0 : ∀ i : grid1.Coords, EltTy.bits .f32 = 32 ∨ (Rect.block (s := S100000x128) S10000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S128x128.size a ≤ S128x128.size a
  hwx1_1 : ∀ i : grid1.Coords, EltTy.bits .f32 = 32 ∨ (Rect.block (s := S128x128) S128x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S10000x128.size a ≤ S100000x128.size a
  hwx1_3 : ∀ i : grid1.Coords, EltTy.bits .f32 = 32 ∨ (Rect.block (s := S100000x128) S10000x128.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S10000x128.size a ≤ S100000x128.size a
  hwx2_0 : ∀ i : grid2.Coords, EltTy.bits .f32 = 32 ∨ (Rect.block (s := S100000x128) S10000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x128.size a ≤ S128x128.size a
  hwx2_1 : ∀ i : grid2.Coords, EltTy.bits .f32 = 32 ∨ (Rect.block (s := S128x128) S128x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x128.size a ≤ S1x128.size a
  hwx2_2 : ∀ i : grid2.Coords, EltTy.bits .f32 = 32 ∨ (Rect.block (s := S1x128) S1x128.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S10000x128.size a ≤ S100000x128.size a
  hwx2_3 : ∀ i : grid2.Coords, EltTy.bits .f32 = 32 ∨ (Rect.block (s := S100000x128) S10000x128.size (cc2_transform_3 i) (hinb2_3 i)).WholeWords (EltTy.packing .f32)

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf
def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf
def scatter_S64x128_S100000x1_S100000x128_1_0_0_1 : ScatterDims S64x128 S100000x1 S100000x128 where
  updateWindowDims := [1]
  insertedWindowDims := [0]
  scatterDimsToOperandDims := [0]
  indexVectorDim := 1
  wf := scatter_S64x128_S100000x1_S100000x128_1_0_0_1_wf
def scatter_S64_S100000x1_S100000_n_0_0_1 : ScatterDims S64 S100000x1 S100000 where
  updateWindowDims := []
  insertedWindowDims := [0]
  scatterDimsToOperandDims := [0]
  indexVectorDim := 1
  wf := scatter_S64_S100000x1_S100000_n_0_0_1_wf
def dot_S64x128_S128x3_S64x3_1_0_0_1_n_n : DotDims S64x128 S128x3 S64x3 where
  lhsContracting := [1]
  rhsContracting := [0]
  lhsNonContracting := [0]
  rhsNonContracting := [1]
  lhsBatch := []
  rhsBatch := []
  wf := dot_S64x128_S128x3_S64x3_1_0_0_1_n_n_wf

abbrev win0_0 : Pipeline.Window sig grid0 :=
  Pipeline.Window.ofSpec (Memref.whole main_v42) S10000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v43) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v44) S10000x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v57) S10000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg5) S128x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v58) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v59) S10000x128.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v72) S10000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg7) S128x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v73) S1x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v74) S10000x128.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S100000 : Shape := ⟨1, ![100000]⟩
abbrev S128x128 : Shape := ⟨2, ![128, 128]⟩
abbrev S128 : Shape := ⟨1, ![128]⟩
abbrev S128x3 : Shape := ⟨2, ![128, 3]⟩
abbrev S3 : Shape := ⟨1, ![3]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S1700000x128 : Shape := ⟨2, ![1700000, 128]⟩
abbrev S1x128 : Shape := ⟨2, ![1, 128]⟩
abbrev S64x128 : Shape := ⟨2, ![64, 128]⟩
abbrev S100000x1 : Shape := ⟨2, ![100000, 1]⟩
abbrev S64 : Shape := ⟨1, ![64]⟩
abbrev S64x1 : Shape := ⟨2, ![64, 1]⟩
abbrev S64x3 : Shape := ⟨2, ![64, 3]⟩
abbrev S1x3 : Shape := ⟨2, ![1, 3]⟩

abbrev nBuf : Space → Nat
  | .hbm => 140
  | .vmem => 0
  | .smem => 0
  | _ => 0

abbrev hbmTy0_0 (i : Nat) : BufTy := match i % 128 with
  | 0 => ⟨S100000x128, .f32⟩
  | 1 => ⟨S2x1600000, .i32⟩
  | 2 => ⟨S100000, .i32⟩
  | 3 => ⟨S128x128, .f32⟩
  | 4 => ⟨S128, .f32⟩
  | 5 => ⟨S128x128, .f32⟩
  | 6 => ⟨S128, .f32⟩
  | 7 => ⟨S128x128, .f32⟩
  | 8 => ⟨S128, .f32⟩
  | 9 => ⟨S128x3, .f32⟩
  | 10 => ⟨S3, .f32⟩
  | 11 => ⟨S1x1600000, .i32⟩
  | 12 => ⟨S1600000, .i32⟩
  | 13 => ⟨S1x1600000, .i32⟩
  | 14 => ⟨S1600000, .i32⟩
  | 15 => ⟨S100000, .i32⟩
  | 16 => ⟨S1700000, .i32⟩
  | 17 => ⟨S1700000, .i32⟩
  | 18 => ⟨S_, .f32⟩
  | 19 => ⟨S1700000, .f32⟩
  | 20 => ⟨S_, .f32⟩
  | 21 => ⟨S100000, .f32⟩
  | 22 => ⟨S1700000x1, .i32⟩
  | 23 => ⟨S100000, .f32⟩
  | 24 => ⟨S_, .f32⟩
  | 25 => ⟨S100000, .f32⟩
  | 26 => ⟨S100000, .i1⟩
  | 27 => ⟨S100000, .f32⟩
  | 28 => ⟨S_, .f32⟩
  | 29 => ⟨S_, .f32⟩
  | 30 => ⟨S100000, .f32⟩
  | 31 => ⟨S100000, .f32⟩
  | 32 => ⟨S_, .i32⟩
  | 33 => ⟨S1700000, .i32⟩
  | 34 => ⟨S1700000, .i1⟩
  | 35 => ⟨S_, .i32⟩
  | 36 => ⟨S1700000, .i32⟩
  | 37 => ⟨S1700000, .i32⟩
  | 38 => ⟨S1700000, .i32⟩
  | 39 => ⟨S1700000x1, .i32⟩
  | 40 => ⟨S1700000, .f32⟩
  | 41 => ⟨S_, .i32⟩
  | 42 => ⟨S1700000, .i32⟩
  | 43 => ⟨S1700000, .i1⟩
  | 44 => ⟨S_, .i32⟩
  | 45 => ⟨S1700000, .i32⟩
  | 46 => ⟨S1700000, .i32⟩
  | 47 => ⟨S1700000, .i32⟩
  | 48 => ⟨S1700000x1, .i32⟩
  | 49 => ⟨S1700000, .f32⟩
  | 50 => ⟨S1700000, .f32⟩
  | 51 => ⟨S100000x128, .f32⟩
  | 52 => ⟨S_, .i32⟩
  | 53 => ⟨S1700000, .i32⟩
  | 54 => ⟨S1700000, .i1⟩
  | 55 => ⟨S_, .i32⟩
  | 56 => ⟨S1700000, .i32⟩
  | 57 => ⟨S1700000, .i32⟩
  | 58 => ⟨S1700000, .i32⟩
  | 59 => ⟨S1700000x1, .i32⟩
  | 60 => ⟨S1700000x128, .f32⟩
  | 61 => ⟨S1700000x1, .f32⟩
  | 62 => ⟨S1700000x128, .f32⟩
  | 63 => ⟨S1700000x128, .f32⟩
  | 64 => ⟨S_, .f32⟩
  | 65 => ⟨S100000x128, .f32⟩
  | 66 => ⟨S1700000x1, .i32⟩
  | 67 => ⟨S100000x128, .f32⟩
  | 68 => ⟨S1x128, .f32⟩
  | 69 => ⟨S100000x128, .f32⟩
  | 70 => ⟨S100000x128, .f32⟩
  | 71 => ⟨S_, .f32⟩
  | 72 => ⟨S100000x128, .f32⟩
  | 73 => ⟨S100000x128, .f32⟩
  | 74 => ⟨S100000x128, .f32⟩
  | 75 => ⟨S_, .i32⟩
  | 76 => ⟨S1700000, .i32⟩
  | 77 => ⟨S1700000, .i1⟩
  | 78 => ⟨S_, .i32⟩
  | 79 => ⟨S1700000, .i32⟩
  | 80 => ⟨S1700000, .i32⟩
  | 81 => ⟨S1700000, .i32⟩
  | 82 => ⟨S1700000x1, .i32⟩
  | 83 => ⟨S1700000x128, .f32⟩
  | 84 => ⟨S1700000x1, .f32⟩
  | 85 => ⟨S1700000x128, .f32⟩
  | 86 => ⟨S1700000x128, .f32⟩
  | 87 => ⟨S_, .f32⟩
  | 88 => ⟨S100000x128, .f32⟩
  | 89 => ⟨S1700000x1, .i32⟩
  | 90 => ⟨S100000x128, .f32⟩
  | 91 => ⟨S1x128, .f32⟩
  | 92 => ⟨S100000x128, .f32⟩
  | 93 => ⟨S100000x128, .f32⟩
  | 94 => ⟨S_, .f32⟩
  | 95 => ⟨S100000x128, .f32⟩
  | 96 => ⟨S100000x128, .f32⟩
  | 97 => ⟨S100000x128, .f32⟩
  | 98 => ⟨S_, .i32⟩
  | 99 => ⟨S1700000, .i32⟩
  | 100 => ⟨S1700000, .i1⟩
  | 101 => ⟨S_, .i32⟩
  | 102 => ⟨S1700000, .i32⟩
  | 103 => ⟨S1700000, .i32⟩
  | 104 => ⟨S1700000, .i32⟩
  | 105 => ⟨S1700000x1, .i32⟩
  | 106 => ⟨S1700000x128, .f32⟩
  | 107 => ⟨S1700000x1, .f32⟩
  | 108 => ⟨S1700000x128, .f32⟩
  | 109 => ⟨S1700000x128, .f32⟩
  | 110 => ⟨S_, .f32⟩
  | 111 => ⟨S100000x128, .f32⟩
  | 112 => ⟨S1700000x1, .i32⟩
  | 113 => ⟨S100000x128, .f32⟩
  | 114 => ⟨S1x128, .f32⟩
  | 115 => ⟨S100000x128, .f32⟩
  | 116 => ⟨S100000x128, .f32⟩
  | 117 => ⟨S_, .f32⟩
  | 118 => ⟨S100000x128, .f32⟩
  | 119 => ⟨S100000x128, .f32⟩
  | 120 => ⟨S_, .f32⟩
  | 121 => ⟨S64x128, .f32⟩
  | 122 => ⟨S100000x1, .i32⟩
  | 123 => ⟨S64x128, .f32⟩
  | 124 => ⟨S_, .f32⟩
  | 125 => ⟨S100000, .f32⟩
  | 126 => ⟨S_, .f32⟩
  | 127 => ⟨S64, .f32⟩
  | _ => ⟨S100000x128, .f32⟩

abbrev hbmTy0_1 (i : Nat) : BufTy := match i % 128 with
  | 0 => ⟨S100000x1, .i32⟩
  | 1 => ⟨S64, .f32⟩
  | 2 => ⟨S_, .f32⟩
  | 3 => ⟨S64, .f32⟩
  | 4 => ⟨S64, .f32⟩
  | 5 => ⟨S64x1, .f32⟩
  | 6 => ⟨S64x128, .f32⟩
  | 7 => ⟨S64x128, .f32⟩
  | 8 => ⟨S64x3, .f32⟩
  | 9 => ⟨S1x3, .f32⟩
  | 10 => ⟨S64x3, .f32⟩
  | 11 => ⟨S64x3, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_cst : Ref sig .tc := ⟨.hbm, 18, rfl⟩
abbrev main_v7 : Ref sig .tc := ⟨.hbm, 19, rfl⟩
abbrev main_cst_0 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_cst_1 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_cst_2 : Ref sig .tc := ⟨.hbm, 28, rfl⟩
abbrev main_call0_v0 : Ref sig .tc := ⟨.hbm, 29, rfl⟩
abbrev main_call0_v1 : Ref sig .tc := ⟨.hbm, 30, rfl⟩
abbrev main_v14 : Ref sig .tc := ⟨.hbm, 31, rfl⟩
abbrev main_c : Ref sig .tc := ⟨.hbm, 32, rfl⟩
abbrev main_v15 : Ref sig .tc := ⟨.hbm, 33, rfl⟩
abbrev main_v16 : Ref sig .tc := ⟨.hbm, 34, rfl⟩
abbrev main_c_3 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_c_4 : Ref sig .tc := ⟨.hbm, 41, rfl⟩
abbrev main_v22 : Ref sig .tc := ⟨.hbm, 42, rfl⟩
abbrev main_v23 : Ref sig .tc := ⟨.hbm, 43, rfl⟩
abbrev main_c_5 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_c_6 : Ref sig .tc := ⟨.hbm, 52, rfl⟩
abbrev main_v31 : Ref sig .tc := ⟨.hbm, 53, rfl⟩
abbrev main_v32 : Ref sig .tc := ⟨.hbm, 54, rfl⟩
abbrev main_c_7 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_cst_8 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_call1_cst : Ref sig .tc := ⟨.hbm, 71, rfl⟩
abbrev main_call1_v0 : Ref sig .tc := ⟨.hbm, 72, rfl⟩
abbrev main_v47 : Ref sig .tc := ⟨.hbm, 73, rfl⟩
abbrev main_v48 : Ref sig .tc := ⟨.hbm, 74, rfl⟩
abbrev main_c_9 : Ref sig .tc := ⟨.hbm, 75, rfl⟩
abbrev main_v49 : Ref sig .tc := ⟨.hbm, 76, rfl⟩
abbrev main_v50 : Ref sig .tc := ⟨.hbm, 77, rfl⟩
abbrev main_c_10 : Ref sig .tc := ⟨.hbm, 78, rfl⟩
abbrev main_v51 : Ref sig .tc := ⟨.hbm, 79, rfl⟩
abbrev main_v52 : Ref sig .tc := ⟨.hbm, 80, rfl⟩
abbrev main_v53 : Ref sig .tc := ⟨.hbm, 81, rfl⟩
abbrev main_v54 : Ref sig .tc := ⟨.hbm, 82, rfl⟩
abbrev main_v55 : Ref sig .tc := ⟨.hbm, 83, rfl⟩
abbrev main_v56 : Ref sig .tc := ⟨.hbm, 84, rfl⟩
abbrev main_v57 : Ref sig .tc := ⟨.hbm, 85, rfl⟩
abbrev main_v58 : Ref sig .tc := ⟨.hbm, 86, rfl⟩
abbrev main_cst_11 : Ref sig .tc := ⟨.hbm, 87, rfl⟩
abbrev main_v59 : Ref sig .tc := ⟨.hbm, 88, rfl⟩
abbrev main_v60 : Ref sig .tc := ⟨.hbm, 89, rfl⟩
abbrev main_v61 : Ref sig .tc := ⟨.hbm, 90, rfl⟩
abbrev main_v62 : Ref sig .tc := ⟨.hbm, 91, rfl⟩
abbrev main_v63 : Ref sig .tc := ⟨.hbm, 92, rfl⟩
abbrev main_v64 : Ref sig .tc := ⟨.hbm, 93, rfl⟩
abbrev main_call2_cst : Ref sig .tc := ⟨.hbm, 94, rfl⟩
abbrev main_call2_v0 : Ref sig .tc := ⟨.hbm, 95, rfl⟩
abbrev main_v65 : Ref sig .tc := ⟨.hbm, 96, rfl⟩
abbrev main_v66 : Ref sig .tc := ⟨.hbm, 97, rfl⟩
abbrev main_c_12 : Ref sig .tc := ⟨.hbm, 98, rfl⟩
abbrev main_v67 : Ref sig .tc := ⟨.hbm, 99, rfl⟩
abbrev main_v68 : Ref sig .tc := ⟨.hbm, 100, rfl⟩
abbrev main_c_13 : Ref sig .tc := ⟨.hbm, 101, rfl⟩
abbrev main_v69 : Ref sig .tc := ⟨.hbm, 102, rfl⟩
abbrev main_v70 : Ref sig .tc := ⟨.hbm, 103, rfl⟩
abbrev main_v71 : Ref sig .tc := ⟨.hbm, 104, rfl⟩
abbrev main_v72 : Ref sig .tc := ⟨.hbm, 105, rfl⟩
abbrev main_v73 : Ref sig .tc := ⟨.hbm, 106, rfl⟩
abbrev main_v74 : Ref sig .tc := ⟨.hbm, 107, rfl⟩
abbrev main_v75 : Ref sig .tc := ⟨.hbm, 108, rfl⟩
abbrev main_v76 : Ref sig .tc := ⟨.hbm, 109, rfl⟩
abbrev main_cst_14 : Ref sig .tc := ⟨.hbm, 110, rfl⟩
abbrev main_v77 : Ref sig .tc := ⟨.hbm, 111, rfl⟩
abbrev main_v78 : Ref sig .tc := ⟨.hbm, 112, rfl⟩
abbrev main_v79 : Ref sig .tc := ⟨.hbm, 113, rfl⟩
abbrev main_v80 : Ref sig .tc := ⟨.hbm, 114, rfl⟩
abbrev main_v81 : Ref sig .tc := ⟨.hbm, 115, rfl⟩
abbrev main_v82 : Ref sig .tc := ⟨.hbm, 116, rfl⟩
abbrev main_call3_cst : Ref sig .tc := ⟨.hbm, 117, rfl⟩
abbrev main_call3_v0 : Ref sig .tc := ⟨.hbm, 118, rfl⟩
abbrev main_v83 : Ref sig .tc := ⟨.hbm, 119, rfl⟩
abbrev main_cst_15 : Ref sig .tc := ⟨.hbm, 120, rfl⟩
abbrev main_v84 : Ref sig .tc := ⟨.hbm, 121, rfl⟩
abbrev main_v85 : Ref sig .tc := ⟨.hbm, 122, rfl⟩
abbrev main_v86 : Ref sig .tc := ⟨.hbm, 123, rfl⟩
abbrev main_cst_16 : Ref sig .tc := ⟨.hbm, 124, rfl⟩
abbrev main_v87 : Ref sig .tc := ⟨.hbm, 125, rfl⟩
abbrev main_cst_17 : Ref sig .tc := ⟨.hbm, 126, rfl⟩
abbrev main_v88 : Ref sig .tc := ⟨.hbm, 127, rfl⟩
abbrev main_v89 : Ref sig .tc := ⟨.hbm, 128, rfl⟩
abbrev main_v90 : Ref sig .tc := ⟨.hbm, 129, rfl⟩
abbrev main_cst_18 : Ref sig .tc := ⟨.hbm, 130, rfl⟩
abbrev main_v91 : Ref sig .tc := ⟨.hbm, 131, rfl⟩
abbrev main_v92 : Ref sig .tc := ⟨.hbm, 132, rfl⟩
abbrev main_v93 : Ref sig .tc := ⟨.hbm, 133, rfl⟩
abbrev main_v94 : Ref sig .tc := ⟨.hbm, 134, rfl⟩
abbrev main_v95 : Ref sig .tc := ⟨.hbm, 135, rfl⟩
abbrev main_v96 : Ref sig .tc := ⟨.hbm, 136, rfl⟩
abbrev main_v97 : Ref sig .tc := ⟨.hbm, 137, rfl⟩
abbrev main_v98 : Ref sig .tc := ⟨.hbm, 138, rfl⟩
abbrev main_v99 : Ref sig .tc := ⟨.hbm, 139, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  concatenates_S1600000_S100000_S1700000_d0 : Shape.Concatenates [S1600000, S100000] S1700000 0
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S_S64x128 : S_.BroadcastsInDim S64x128 (![] : Fin 0 → Fin S64x128.rank)
  bcast_S100000_S100000x1_0 : S100000.BroadcastsInDim S100000x1 (![0] : Fin 1 → Fin S100000x1.rank)
  bcast_S_S64 : S_.BroadcastsInDim S64 (![] : Fin 0 → Fin S64.rank)
  bcast_S64_S64x1_0 : S64.BroadcastsInDim S64x1 (![0] : Fin 1 → Fin S64x1.rank)
  bcast_S64x1_S64x128_0_1 : S64x1.BroadcastsInDim S64x128 (![0, 1] : Fin 2 → Fin S64x128.rank)
  bcast_S3_S1x3_1 : S3.BroadcastsInDim S1x3 (![1] : Fin 1 → Fin S1x3.rank)
  bcast_S1x3_S64x3_0_1 : S1x3.BroadcastsInDim S64x3 (![0, 1] : Fin 2 → Fin S64x3.rank)
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S100000x128_S128x128_S100000x128_1_0_0_1_n_n_wf : DotDims.WF S100000x128 S128x128 S100000x128 [1] [0] [0] [1] [] []
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  scatter_S64x128_S100000x1_S100000x128_1_0_0_1_wf : ScatterDims.WF S64x128 S100000x1 S100000x128 [1] [0] [0] 1
  scatter_S64_S100000x1_S100000_n_0_0_1_wf : ScatterDims.WF S64 S100000x1 S100000 [] [0] [0] 1
  dot_S64x128_S128x3_S64x3_1_0_0_1_n_n_wf : DotDims.WF S64x128 S128x3 S64x3 [1] [0] [0] [1] [] []

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf
def scatter_S64x128_S100000x1_S100000x128_1_0_0_1 : ScatterDims S64x128 S100000x1 S100000x128 where
  updateWindowDims := [1]
  insertedWindowDims := [0]
  scatterDimsToOperandDims := [0]
  indexVectorDim := 1
  wf := scatter_S64x128_S100000x1_S100000x128_1_0_0_1_wf
def scatter_S64_S100000x1_S100000_n_0_0_1 : ScatterDims S64 S100000x1 S100000 where
  updateWindowDims := []
  insertedWindowDims := [0]
  scatterDimsToOperandDims := [0]
  indexVectorDim := 1
  wf := scatter_S64_S100000x1_S100000_n_0_0_1_wf
def dot_S64x128_S128x3_S64x3_1_0_0_1_n_n : DotDims S64x128 S128x3 S64x3 where
  lhsContracting := [1]
  rhsContracting := [0]
  lhsNonContracting := [0]
  rhsNonContracting := [1]
  lhsBatch := []
  rhsBatch := []
  wf := dot_S64x128_S128x3_S64x3_1_0_0_1_n_n_wf

class Facts : Prop extends Facts₀ where

variable [Facts]
-- ==== Proof.Spec.lean ====
/-
  The three-layer graph convolution as functions of the inputs.

  Shared by the two programs, read at any float family:
    * `srcIdx`, `dstIdx`: per message (the 1 600 000 edges followed by the 100 000 self loops) the source row to look
      up, a negative word moved up by the node count as NumPy indexing does, and the destination row to add into;
    * `norm`: the symmetric normalisation `dis[src] · dis[dst]`, `dis = deg > 0 ? 1/√deg : 0`, `deg` the number of
      messages arriving at a node;
    * `segsum si di n t`: the message passing of a feature table `t`: row `s` of the result is the sum over the messages
      `e` with destination `s` of `n e · t[src e, ·]`;
    * `tail`: the mean over each graph of the batch, then the classifier.
  The reference's layer multiplies by the weights FIRST and passes messages after (`layerR`); the kernel passes messages
  first and multiplies after, in one fused block `mbr a W b = max (a · W + b) 0` (`layerK`). The two agree on finite
  data because message passing is linear in the feature table.
-/
import proofs.«177310_j64639257805082_1_alg».proof.ReferenceIdeal
import Idealize.ShloMosaic.PureOps.Ideal
import Idealize.ShloMosaic.Lib.ValueIdx

noncomputable section

open scoped BigOperators

namespace Cert.Gcn

open Idealize.ShloMosaic Idealize.ShloMosaic.ValueIdx Cert.ReferenceIdeal Cert.ReferenceIdeal.Facts₀

section AnyFamily

variable {F : FTy → Type} [FloatOps F] [Cert.ReferenceIdeal.Facts]

/-- Row `r` of `edge_index` as a vector of 1 600 000 words. -/
def edgeRow0 (x1 : (⟨S2x1600000, .i32⟩ : BufTy).Contents (Elt F)) : (⟨S1600000, .i32⟩ : BufTy).Contents (Elt F) :=
  shapeCast _ (extractStridedSlice S1x1600000 ![0, 0] (x1) slices_S2x1600000_S1x1600000_0_0) shapeCasts_S1x1600000_S1600000
def edgeRow1 (x1 : (⟨S2x1600000, .i32⟩ : BufTy).Contents (Elt F)) : (⟨S1600000, .i32⟩ : BufTy).Contents (Elt F) :=
  shapeCast _ (extractStridedSlice S1x1600000 ![1, 0] (x1) slices_S2x1600000_S1x1600000_1_0) shapeCasts_S1x1600000_S1600000

/-- The self loops: node `i` sends to itself. -/
def selfLoops : (⟨S100000, .i32⟩ : BufTy).Contents (Elt F) :=
  iotaInDim S100000 32 0

/-- Sources, then destinations, of all 1 700 000 messages. -/
def srcW (x1 : (⟨S2x1600000, .i32⟩ : BufTy).Contents (Elt F)) : (⟨S1700000, .i32⟩ : BufTy).Contents (Elt F) :=
  concatenate S1700000 0 [⟨S1600000, (edgeRow0 (F := F) x1)⟩, ⟨S100000, (selfLoops (F := F))⟩] concatenates_S1600000_S100000_S1700000_d0
def dstW (x1 : (⟨S2x1600000, .i32⟩ : BufTy).Contents (Elt F)) : (⟨S1700000, .i32⟩ : BufTy).Contents (Elt F) :=
  concatenate S1700000 0 [⟨S1600000, (edgeRow1 (F := F) x1)⟩, ⟨S100000, (selfLoops (F := F))⟩] concatenates_S1600000_S100000_S1700000_d0

/-- A vector of words as a one-column table of start indices. -/
def colIdx (v : (⟨S1700000, .i32⟩ : BufTy).Contents (Elt F)) : (⟨S1700000x1, .i32⟩ : BufTy).Contents (Elt F) :=
  broadcastInDim S1700000x1 ![0] bcast_S1700000_S1700000x1_0 (v)

/-- NumPy's reading of an index: a negative word counts from the end. -/
def wrapW (v : (⟨S1700000, .i32⟩ : BufTy).Contents (Elt F)) : (⟨S1700000, .i32⟩ : BufTy).Contents (Elt F) :=
  select (cmpi .slt (v) (broadcastInDim S1700000 ![] bcast_S_S1700000 (constantI S_ 32 0#32)))
    (addi (v) (broadcastInDim S1700000 ![] bcast_S_S1700000 (constantI S_ 32 100000#32))) (v)

/-- The start indices of the row lookups (by source, and by destination for the normalisation), and of the sums
    (by destination, as given). -/
def srcIdx (x1 : (⟨S2x1600000, .i32⟩ : BufTy).Contents (Elt F)) : (⟨S1700000x1, .i32⟩ : BufTy).Contents (Elt F) :=
  colIdx (F := F) (wrapW (F := F) (srcW (F := F) x1))
def dstIdxW (x1 : (⟨S2x1600000, .i32⟩ : BufTy).Contents (Elt F)) : (⟨S1700000x1, .i32⟩ : BufTy).Contents (Elt F) :=
  colIdx (F := F) (wrapW (F := F) (dstW (F := F) x1))
def dstIdx (x1 : (⟨S2x1600000, .i32⟩ : BufTy).Contents (Elt F)) : (⟨S1700000x1, .i32⟩ : BufTy).Contents (Elt F) :=
  colIdx (F := F) (dstW (F := F) x1)

def zeroS : (⟨S_, .f32⟩ : BufTy).Contents (Elt F) := constant S_ .f32 0x00000000#32
def oneS : (⟨S_, .f32⟩ : BufTy).Contents (Elt F) := constant S_ .f32 0x3F800000#32

/-- `deg s`: how many messages arrive at node `s`. -/
def deg (x1 : (⟨S2x1600000, .i32⟩ : BufTy).Contents (Elt F)) : (⟨S100000, .f32⟩ : BufTy).Contents (Elt F) :=
  Host.scatterAdd scatter_S100000_S1700000x1_S1700000_n_0_0_1 (broadcastInDim S100000 ![] bcast_S_S100000 (zeroS (F := F)))
    (dstIdx (F := F) x1) (broadcastInDim S1700000 ![] bcast_S_S1700000 (oneS (F := F)))

/-- `dis s = 1/√(deg s)` where the degree is positive, else `0`. -/
def dis (x1 : (⟨S2x1600000, .i32⟩ : BufTy).Contents (Elt F)) : (⟨S100000, .f32⟩ : BufTy).Contents (Elt F) :=
  select (cmpf (F := F) .ogt (deg (F := F) x1) (broadcastInDim S100000 ![] bcast_S_S100000 (zeroS (F := F))))
    (Host.rsqrt (deg (F := F) x1)) (broadcastInDim S100000 ![] bcast_S_S100000 (id (zeroS (F := F))))

/-- The weight of message `e`: `dis[src e] · dis[dst e]`. -/
def norm (x1 : (⟨S2x1600000, .i32⟩ : BufTy).Contents (Elt F)) : (⟨S1700000, .f32⟩ : BufTy).Contents (Elt F) :=
  mulf (Host.gather gather_S100000_S1700000x1_S1700000_n_0_n_n_0_1_1 (dis (F := F) x1) (srcIdx (F := F) x1))
    (Host.gather gather_S100000_S1700000x1_S1700000_n_0_n_n_0_1_1 (dis (F := F) x1) (dstIdxW (F := F) x1))

/-- A weight per message, repeated along the 128 features. -/
def normB (n : (⟨S1700000, .f32⟩ : BufTy).Contents (Elt F)) : (⟨S1700000x128, .f32⟩ : BufTy).Contents (Elt F) :=
  broadcastInDim S1700000x128 ![0, 1] bcast_S1700000x1_S1700000x128_0_1 (broadcastInDim S1700000x1 ![0] bcast_S1700000_S1700000x1_0 (n))

def zerosX : (⟨S100000x128, .f32⟩ : BufTy).Contents (Elt F) :=
  broadcastInDim S100000x128 ![] bcast_S_S100000x128 (zeroS (F := F))

/-- MESSAGE PASSING of the table `t`: row `s` is the sum over the messages into `s` of weight · source row. -/
def segsum (si di : (⟨S1700000x1, .i32⟩ : BufTy).Contents (Elt F)) (n : (⟨S1700000, .f32⟩ : BufTy).Contents (Elt F))
    (t : (⟨S100000x128, .f32⟩ : BufTy).Contents (Elt F)) : (⟨S100000x128, .f32⟩ : BufTy).Contents (Elt F) :=
  Host.scatterAdd scatter_S100000x128_S1700000x1_S1700000x128_1_0_0_1 (zerosX (F := F)) (di)
    (mulf (Host.gather gather_S100000x128_S1700000x1_S1700000x128_1_0_n_n_0_1_1128 (t) (si)) (normB (F := F) n))

/-- The bias, repeated along the nodes. -/
def biasB (b : (⟨S128, .f32⟩ : BufTy).Contents (Elt F)) : (⟨S100000x128, .f32⟩ : BufTy).Contents (Elt F) :=
  broadcastInDim S100000x128 ![0, 1] bcast_S1x128_S100000x128_0_1 (broadcastInDim S1x128 ![1] bcast_S128_S1x128_1 (b))

/-- THE REFERENCE'S LAYER: weights first, messages after, then bias and `max · 0`. -/
def layerR (si di : (⟨S1700000x1, .i32⟩ : BufTy).Contents (Elt F)) (n : (⟨S1700000, .f32⟩ : BufTy).Contents (Elt F))
    (h : (⟨S100000x128, .f32⟩ : BufTy).Contents (Elt F)) (W : (⟨S128x128, .f32⟩ : BufTy).Contents (Elt F))
    (b : (⟨S128, .f32⟩ : BufTy).Contents (Elt F)) : (⟨S100000x128, .f32⟩ : BufTy).Contents (Elt F) :=
  maximumf (addf (segsum (F := F) si di n (Host.dotGeneral dot_S100000x128_S128x128_S100000x128_1_0_0_1_n_n none (h) (W)))
    (biasB (F := F) b)) (zerosX (F := F))

/-- How many nodes each graph of the batch has, at least one, repeated along the features. -/
def cntB (x2 : (⟨S100000, .i32⟩ : BufTy).Contents (Elt F)) : (⟨S64x128, .f32⟩ : BufTy).Contents (Elt F) :=
  broadcastInDim S64x128 ![0, 1] bcast_S64x1_S64x128_0_1 (broadcastInDim S64x1 ![0] bcast_S64_S64x1_0
    (maximumf (Host.scatterAdd scatter_S64_S100000x1_S100000_n_0_0_1 (broadcastInDim S64 ![] bcast_S_S64 (zeroS (F := F)))
        (broadcastInDim S100000x1 ![0] bcast_S100000_S100000x1_0 (x2)) (broadcastInDim S100000 ![] bcast_S_S100000 (oneS (F := F))))
      (broadcastInDim S64 ![] bcast_S_S64 (oneS (F := F)))))

/-- THE TAIL both programs share: per graph the mean of the node features, then `· Wc + bc`. -/
def tail (h : (⟨S100000x128, .f32⟩ : BufTy).Contents (Elt F)) (x2 : (⟨S100000, .i32⟩ : BufTy).Contents (Elt F))
    (x9 : (⟨S128x3, .f32⟩ : BufTy).Contents (Elt F)) (x10 : (⟨S3, .f32⟩ : BufTy).Contents (Elt F)) :
    (⟨S64x3, .f32⟩ : BufTy).Contents (Elt F) :=
  addf (Host.dotGeneral dot_S64x128_S128x3_S64x3_1_0_0_1_n_n none
      (Host.divf (Host.scatterAdd scatter_S64x128_S100000x1_S100000x128_1_0_0_1 (broadcastInDim S64x128 ![] bcast_S_S64x128 (zeroS (F := F)))
          (broadcastInDim S100000x1 ![0] bcast_S100000_S100000x1_0 (x2)) (h)) (cntB (F := F) x2)) (x9))
    (broadcastInDim S64x3 ![0, 1] bcast_S1x3_S64x3_0_1 (broadcastInDim S1x3 ![1] bcast_S3_S1x3_1 (x10)))

/-- THE REFERENCE'S RESULT. -/
def resultR (x0 : (⟨S100000x128, .f32⟩ : BufTy).Contents (Elt F)) (x1 : (⟨S2x1600000, .i32⟩ : BufTy).Contents (Elt F))
    (x2 : (⟨S100000, .i32⟩ : BufTy).Contents (Elt F)) (x3 : (⟨S128x128, .f32⟩ : BufTy).Contents (Elt F))
    (x4 : (⟨S128, .f32⟩ : BufTy).Contents (Elt F)) (x5 : (⟨S128x128, .f32⟩ : BufTy).Contents (Elt F))
    (x6 : (⟨S128, .f32⟩ : BufTy).Contents (Elt F)) (x7 : (⟨S128x128, .f32⟩ : BufTy).Contents (Elt F))
    (x8 : (⟨S128, .f32⟩ : BufTy).Contents (Elt F)) (x9 : (⟨S128x3, .f32⟩ : BufTy).Contents (Elt F))
    (x10 : (⟨S3, .f32⟩ : BufTy).Contents (Elt F)) : (⟨S64x3, .f32⟩ : BufTy).Contents (Elt F) :=
  tail (F := F)
    (layerR (F := F) (srcIdx (F := F) x1) (dstIdx (F := F) x1) (norm (F := F) x1)
      (layerR (F := F) (srcIdx (F := F) x1) (dstIdx (F := F) x1) (norm (F := F) x1)
        (layerR (F := F) (srcIdx (F := F) x1) (dstIdx (F := F) x1) (norm (F := F) x1) x0 x3 x4) x5 x6) x7 x8)
    x2 x9 x10

end AnyFamily

section AtIdeal

/-- THE KERNEL'S FUSED BLOCK over whole arrays: entry `(s, j)` is `max (∑ₖ a[s,k] · W[k,j] + b[0,j]) 0`. -/
def mbr (a : (⟨S100000x128, .f32⟩ : BufTy).Contents (Elt Ideal)) (W : (⟨S128x128, .f32⟩ : BufTy).Contents (Elt Ideal))
    (b2 : (⟨S1x128, .f32⟩ : BufTy).Contents (Elt Ideal)) : (⟨S100000x128, .f32⟩ : BufTy).Contents (Elt Ideal) :=
  fun i => max ((∑ k : Fin 128, (a (ix2 (i 0) k) : EReal) * (W (ix2 k (i 1)) : EReal)) + (b2 (ix2 0 (i 1)) : EReal)) 0

variable [Cert.ReferenceIdeal.Facts]

/-- THE KERNEL'S LAYER: messages first, then the fused block. -/
def layerK (si di : (⟨S1700000x1, .i32⟩ : BufTy).Contents (Elt Ideal)) (n : (⟨S1700000, .f32⟩ : BufTy).Contents (Elt Ideal))
    (h : (⟨S100000x128, .f32⟩ : BufTy).Contents (Elt Ideal)) (W : (⟨S128x128, .f32⟩ : BufTy).Contents (Elt Ideal))
    (b2 : (⟨S1x128, .f32⟩ : BufTy).Contents (Elt Ideal)) : (⟨S100000x128, .f32⟩ : BufTy).Contents (Elt Ideal) :=
  mbr (segsum (F := Ideal) si di n h) W b2

/-- THE KERNEL'S RESULT (`c1 c2 c3`: the three biases as one-row tables). -/
def resultK (x0 : (⟨S100000x128, .f32⟩ : BufTy).Contents (Elt Ideal)) (x1 : (⟨S2x1600000, .i32⟩ : BufTy).Contents (Elt Ideal))
    (x2 : (⟨S100000, .i32⟩ : BufTy).Contents (Elt Ideal)) (x3 : (⟨S128x128, .f32⟩ : BufTy).Contents (Elt Ideal))
    (c1 : (⟨S1x128, .f32⟩ : BufTy).Contents (Elt Ideal)) (x5 : (⟨S128x128, .f32⟩ : BufTy).Contents (Elt Ideal))
    (c2 : (⟨S1x128, .f32⟩ : BufTy).Contents (Elt Ideal)) (x7 : (⟨S128x128, .f32⟩ : BufTy).Contents (Elt Ideal))
    (c3 : (⟨S1x128, .f32⟩ : BufTy).Contents (Elt Ideal)) (x9 : (⟨S128x3, .f32⟩ : BufTy).Contents (Elt Ideal))
    (x10 : (⟨S3, .f32⟩ : BufTy).Contents (Elt Ideal)) : (⟨S64x3, .f32⟩ : BufTy).Contents (Elt Ideal) :=
  tail (F := Ideal)
    (layerK (srcIdx (F := Ideal) x1) (dstIdx (F := Ideal) x1) (norm (F := Ideal) x1)
      (layerK (srcIdx (F := Ideal) x1) (dstIdx (F := Ideal) x1) (norm (F := Ideal) x1)
        (layerK (srcIdx (F := Ideal) x1) (dstIdx (F := Ideal) x1) (norm (F := Ideal) x1) x0 x3 c1) x5 c2) x7 c3)
    x2 x9 x10

end AtIdeal

end Cert.Gcn

end
-- ==== Proof.KBias.lean ====
/-
  A bias vector laid out as a one-row table: entry `(0, j)` of the row is entry `j` of the vector.
-/
import proofs.«177310_j64639257805082_1_alg».proof.KernelIdeal
import Idealize.ShloMosaic.PureOps.Ideal
import Idealize.ShloMosaic.Lib.ValueIdx
import Idealize.ShloMosaic.Lib.ValueLayout
import Idealize.ShloMosaic.Lib.Pipeline.Value

noncomputable section

namespace Cert.KernelIdeal.KBias

open Idealize.ShloMosaic Idealize.ShloMosaic.ValueIdx Cert.KernelIdeal Cert.KernelIdeal.Facts₀

variable {F : FTy → Type} [FloatOps F] [Cert.KernelIdeal.Facts]

/-- The bias `b : [128]` as the `[1, 128]` table the fused block reads. -/
def biasRow (b : (⟨S128, .f32⟩ : BufTy).Contents (Elt F)) : (⟨S1x128, .f32⟩ : BufTy).Contents (Elt F) :=
  shapeCast S1x128 (b) shapeCasts_S128_S1x128

/-- Its one row holds the vector. -/
theorem biasRow_apply (b : (⟨S128, .f32⟩ : BufTy).Contents (Elt F)) (j : Fin 128) :
    biasRow (F := F) b (ix2 0 j) = b (ix1 j) :=
  -- a leading unit axis put in front of a vector: position `0 * 128 + j` of the table is position `j` of the vector
  shapeCast_a_1a_apply (a := 128) b shapeCasts_S128_S1x128 0 j

end Cert.KernelIdeal.KBias

end
-- ==== Proof.KStretch.lean ====
/-
  The host side of the kernel's program, one stretch of operations at a time, from ANY contents `V` of the buffers
  the stretch finds: what it leaves in the buffers later items read, as the specification's functions of what it read,
  and which buffers it leaves alone. (Before the first launch: the index vectors and the degrees; `dis`; the message
  weights, layer 1's message passing and bias row. Between launches: the next layer's message passing and bias row.
  After the last: the pooling and the classifier.)
-/
import proofs.«177310_j64639257805082_1_alg».proof.Proof.Gen.KernelIdeal.Frame
import proofs.«177310_j64639257805082_1_alg».proof.Proof.Spec
import proofs.«177310_j64639257805082_1_alg».proof.Proof.KBias

set_option maxRecDepth 16384

noncomputable section

namespace Cert.KernelIdeal.KV

open Cert.KernelIdeal Cert.KernelIdeal.Gen Idealize.ShloMosaic Idealize.ShloMosaic.TcCoe Idealize.SL.Sem Idealize.ShloMosaic.StableHlo

/-- Opens the specification's names, outermost first, down to the printed operations. -/
macro "open_spec" : tactic => `(tactic| repeat (first
  | unfold Cert.Gcn.segsum | unfold Cert.Gcn.norm | unfold Cert.Gcn.normB | unfold Cert.Gcn.dis | unfold Cert.Gcn.deg
  | unfold Cert.Gcn.srcIdx | unfold Cert.Gcn.dstIdxW | unfold Cert.Gcn.dstIdx | unfold Cert.Gcn.colIdx | unfold Cert.Gcn.wrapW
  | unfold Cert.Gcn.srcW | unfold Cert.Gcn.dstW | unfold Cert.Gcn.edgeRow0 | unfold Cert.Gcn.edgeRow1 | unfold Cert.Gcn.selfLoops
  | unfold Cert.Gcn.zerosX | unfold Cert.Gcn.zeroS | unfold Cert.Gcn.oneS | unfold Cert.Gcn.tail | unfold Cert.Gcn.cntB))

/-- The arguments the host operations read and never write. -/
abbrev argRefs : List (Ref sig .tc) :=
  [main_arg0, main_arg2, main_arg3, main_arg4, main_arg5, main_arg6, main_arg7, main_arg8, main_arg9, main_arg10]
/-- With them, the two index vectors the first stretch makes and every layer reads again. -/
abbrev carried : List (Ref sig .tc) := main_v5 :: main_v6 :: argRefs
/-- And the message weights, made before the first launch. -/
abbrev carriedN : List (Ref sig .tc) := main_v29 :: carried

section Stretches

variable {F : FTy → Type} [FloatOps F] [Cert.ReferenceIdeal.Facts]
variable (V : Valuation τ sig (Elt F))

/-- The message weights from the vector `d` (to be `dis`) and the two index vectors. -/
def normOf (d : (⟨Cert.ReferenceIdeal.S100000, .f32⟩ : BufTy).Contents (Elt F))
    (s5 s6 : (⟨Cert.ReferenceIdeal.S1700000, .i32⟩ : BufTy).Contents (Elt F)) :
    (⟨Cert.ReferenceIdeal.S1700000, .f32⟩ : BufTy).Contents (Elt F) :=
  mulf (Host.gather Cert.ReferenceIdeal.gather_S100000_S1700000x1_S1700000_n_0_n_n_0_1_1 (d) (Cert.Gcn.colIdx (F := F) (Cert.Gcn.wrapW (F := F) s5)))
    (Host.gather Cert.ReferenceIdeal.gather_S100000_S1700000x1_S1700000_n_0_n_n_0_1_1 (d) (Cert.Gcn.colIdx (F := F) (Cert.Gcn.wrapW (F := F) s6)))

/-! ## The first stretch: sources, destinations, degrees -/

set_option maxHeartbeats 4000000 in
theorem s0_v5 : StableHlo.after hostOps0 V (Proc.devRef .tc main_v5) = Cert.Gcn.srcW (F := F) (V (Proc.devRef .tc main_arg1)) := by
  after_results; open_spec; rfl
set_option maxHeartbeats 4000000 in
theorem s0_v6 : StableHlo.after hostOps0 V (Proc.devRef .tc main_v6) = Cert.Gcn.dstW (F := F) (V (Proc.devRef .tc main_arg1)) := by
  after_results; open_spec; rfl
set_option maxHeartbeats 4000000 in
theorem s0_v12 : StableHlo.after hostOps0 V (Proc.devRef .tc main_v12)
    = cmpf (F := F) .ogt (Cert.Gcn.deg (F := F) (V (Proc.devRef .tc main_arg1)))
        (broadcastInDim Cert.ReferenceIdeal.S100000 ![] Cert.ReferenceIdeal.Facts₀.bcast_S_S100000 (Cert.Gcn.zeroS (F := F))) := by
  after_results; open_spec; rfl
set_option maxHeartbeats 4000000 in
theorem s0_v13 : StableHlo.after hostOps0 V (Proc.devRef .tc main_v13) = Host.rsqrt (Cert.Gcn.deg (F := F) (V (Proc.devRef .tc main_arg1))) := by
  after_results; open_spec; rfl
set_option maxHeartbeats 4000000 in
theorem s0_cst2 : StableHlo.after hostOps0 V (Proc.devRef .tc main_cst_2) = Cert.Gcn.zeroS (F := F) := by
  after_results; open_spec; rfl
set_option maxHeartbeats 4000000 in
/-- The first stretch writes no argument. -/
theorem keep0 (b : Ref sig .tc) (hb : b ∈ argRefs) : StableHlo.after hostOps0 V (Proc.devRef .tc b) = V (Proc.devRef .tc b) := by
  simp only [argRefs, List.mem_cons, List.not_mem_nil, or_false] at hb
  rcases hb with rfl | rfl | rfl | rfl | rfl | rfl | rfl | rfl | rfl | rfl <;> after_results

/-! ## The second stretch: `dis` -/

set_option maxHeartbeats 4000000 in
theorem s01_v14 : StableHlo.after hostOps0_1 V (Proc.devRef .tc main_v14)
    = select (V (Proc.devRef .tc main_v12)) (V (Proc.devRef .tc main_v13))
        (broadcastInDim Cert.ReferenceIdeal.S100000 ![] Cert.ReferenceIdeal.Facts₀.bcast_S_S100000 (id (V (Proc.devRef .tc main_cst_2)))) := by
  after_results_simp <;> rfl
set_option maxHeartbeats 4000000 in
/-- It writes neither an argument nor an index vector. -/
theorem keep01 (b : Ref sig .tc) (hb : b ∈ carried) : StableHlo.after hostOps0_1 V (Proc.devRef .tc b) = V (Proc.devRef .tc b) := by
  simp only [carried, argRefs, List.mem_cons, List.not_mem_nil, or_false] at hb
  rcases hb with rfl | rfl | rfl | rfl | rfl | rfl | rfl | rfl | rfl | rfl | rfl | rfl <;> (after_results_simp <;> rfl)

/-! ## The third stretch: the message weights, layer 1's message passing, its bias row -/

set_option maxHeartbeats 4000000 in
theorem s02_v29 : StableHlo.after hostOps0_2 V (Proc.devRef .tc main_v29)
    = normOf (F := F) (V (Proc.devRef .tc main_v14)) (V (Proc.devRef .tc main_v5)) (V (Proc.devRef .tc main_v6)) := by
  after_results_simp <;> (unfold normOf; open_spec; rfl)
set_option maxHeartbeats 4000000 in
theorem s02_v42 : StableHlo.after hostOps0_2 V (Proc.devRef .tc main_v42)
    = Cert.Gcn.segsum (F := F) (Cert.Gcn.colIdx (F := F) (Cert.Gcn.wrapW (F := F) (V (Proc.devRef .tc main_v5)))) (Cert.Gcn.colIdx (F := F) (V (Proc.devRef .tc main_v6)))
        (normOf (F := F) (V (Proc.devRef .tc main_v14)) (V (Proc.devRef .tc main_v5)) (V (Proc.devRef .tc main_v6))) (V (Proc.devRef .tc main_arg0)) := by
  after_results_simp <;> (unfold normOf; open_spec; rfl)
set_option maxHeartbeats 4000000 in
theorem s02_v43 : StableHlo.after hostOps0_2 V (Proc.devRef .tc main_v43) = KBias.biasRow (F := F) (V (Proc.devRef .tc main_arg4)) := by
  after_results_simp <;> rfl
set_option maxHeartbeats 4000000 in
theorem keep02 (b : Ref sig .tc) (hb : b ∈ carried) : StableHlo.after hostOps0_2 V (Proc.devRef .tc b) = V (Proc.devRef .tc b) := by
  simp only [carried, argRefs, List.mem_cons, List.not_mem_nil, or_false] at hb
  rcases hb with rfl | rfl | rfl | rfl | rfl | rfl | rfl | rfl | rfl | rfl | rfl | rfl <;> (after_results_simp <;> rfl)

/-! ## Between the launches: the next layer's message passing and bias row -/

set_option maxHeartbeats 4000000 in
theorem s1_v57 : StableHlo.after hostOps1 V (Proc.devRef .tc main_v57)
    = Cert.Gcn.segsum (F := F) (Cert.Gcn.colIdx (F := F) (Cert.Gcn.wrapW (F := F) (V (Proc.devRef .tc main_v5)))) (Cert.Gcn.colIdx (F := F) (V (Proc.devRef .tc main_v6)))
        (V (Proc.devRef .tc main_v29)) (V (Proc.devRef .tc main_v44)) := by
  after_results; open_spec; rfl
set_option maxHeartbeats 4000000 in
theorem s1_v58 : StableHlo.after hostOps1 V (Proc.devRef .tc main_v58) = KBias.biasRow (F := F) (V (Proc.devRef .tc main_arg6)) := by
  after_results; rfl
set_option maxHeartbeats 4000000 in
theorem keep1 (b : Ref sig .tc) (hb : b ∈ carriedN) : StableHlo.after hostOps1 V (Proc.devRef .tc b) = V (Proc.devRef .tc b) := by
  simp only [carriedN, carried, argRefs, List.mem_cons, List.not_mem_nil, or_false] at hb
  rcases hb with rfl | rfl | rfl | rfl | rfl | rfl | rfl | rfl | rfl | rfl | rfl | rfl | rfl <;> after_results

set_option maxHeartbeats 4000000 in
theorem s2_v72 : StableHlo.after hostOps2 V (Proc.devRef .tc main_v72)
    = Cert.Gcn.segsum (F := F) (Cert.Gcn.colIdx (F := F) (Cert.Gcn.wrapW (F := F) (V (Proc.devRef .tc main_v5)))) (Cert.Gcn.colIdx (F := F) (V (Proc.devRef .tc main_v6)))
        (V (Proc.devRef .tc main_v29)) (V (Proc.devRef .tc main_v59)) := by
  after_results; open_spec; rfl
set_option maxHeartbeats 4000000 in
theorem s2_v73 : StableHlo.after hostOps2 V (Proc.devRef .tc main_v73) = KBias.biasRow (F := F) (V (Proc.devRef .tc main_arg8)) := by
  after_results; rfl
set_option maxHeartbeats 4000000 in
theorem keep2 (b : Ref sig .tc) (hb : b ∈ argRefs) : StableHlo.after hostOps2 V (Proc.devRef .tc b) = V (Proc.devRef .tc b) := by
  simp only [argRefs, List.mem_cons, List.not_mem_nil, or_false] at hb
  rcases hb with rfl | rfl | rfl | rfl | rfl | rfl | rfl | rfl | rfl | rfl <;> after_results

/-! ## After the last launch: the pooling and the classifier -/

set_option maxHeartbeats 4000000 in
theorem s3_v90 : StableHlo.after hostOps3 V (Proc.devRef .tc main_v90)
    = Cert.Gcn.tail (F := F) (V (Proc.devRef .tc main_v74)) (V (Proc.devRef .tc main_arg2)) (V (Proc.devRef .tc main_arg9)) (V (Proc.devRef .tc main_arg10)) := by
  after_results; rfl

end Stretches

end Cert.KernelIdeal.KV

end
-- ==== Proof.Region.lean ====
/-
  What one launch of the fused block leaves in its output array, as ONE function of the arrays the launch finds:
  the grid's ten points each write rows `10000·t … 10000·t + 9999`, and row `s`, column `j` of what point `t` writes is
  `max (∑ₖ a[s,k] · W[k,j] + b[0,j]) 0` whatever the point; the ten blocks tile the array.
-/
import proofs.«177310_j64639257805082_1_alg».proof.Proof.Gen.KernelIdeal.Frame
import proofs.«177310_j64639257805082_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Region

open Cert.KernelIdeal Cert.KernelIdeal.Gen Idealize.ShloMosaic Idealize.ShloMosaic.TcCoe Idealize.ShloMosaic.ValueIdx Idealize.SL.Sem
open scoped BigOperators

/-- The two zero offsets, however spelt. -/
theorem zero2 : (![0, 0] : Fin 2 → Nat) = fun _ => 0 := funext fun a => by fin_cases a <;> rfl

/-! ## The product's operand indices, axis by axis -/

theorem lhs_mm_0 (i : S10000x128.Idx) (q : dot_S10000x128_S128x128_S10000x128_1_0_0_1_n_n.contr.Idx) :
    (dot_S10000x128_S128x128_S10000x128_1_0_0_1_n_n.lhsIdx i q 0).val = (i 0).val := by
  unfold DotDims.lhsIdx
  rw [dif_neg (show ¬(0 : Fin S10000x128.rank) ∈ dot_S10000x128_S128x128_S10000x128_1_0_0_1_n_n.lhsBatch by decide), dif_pos (show (0 : Fin S10000x128.rank) ∈ dot_S10000x128_S128x128_S10000x128_1_0_0_1_n_n.lhsNonContracting by decide)]
  rfl

theorem lhs_mm_1 (i : S10000x128.Idx) (q : dot_S10000x128_S128x128_S10000x128_1_0_0_1_n_n.contr.Idx) :
    (dot_S10000x128_S128x128_S10000x128_1_0_0_1_n_n.lhsIdx i q 1).val = (q ⟨0, by decide⟩).val :=
  dot_S10000x128_S128x128_S10000x128_1_0_0_1_n_n.lhsIdx_val_of_single rfl i q

theorem rhs_mm_0 (i : S10000x128.Idx) (q : dot_S10000x128_S128x128_S10000x128_1_0_0_1_n_n.contr.Idx) :
    (dot_S10000x128_S128x128_S10000x128_1_0_0_1_n_n.rhsIdx i q 0).val = (q ⟨0, by decide⟩).val :=
  dot_S10000x128_S128x128_S10000x128_1_0_0_1_n_n.rhsIdx_val_of_single rfl i q

theorem rhs_mm_1 (i : S10000x128.Idx) (q : dot_S10000x128_S128x128_S10000x128_1_0_0_1_n_n.contr.Idx) :
    (dot_S10000x128_S128x128_S10000x128_1_0_0_1_n_n.rhsIdx i q 1).val = (i 1).val := by
  unfold DotDims.rhsIdx
  rw [dif_neg (show ¬(1 : Fin S128x128.rank) ∈ dot_S10000x128_S128x128_S10000x128_1_0_0_1_n_n.rhsBatch by decide), dif_pos (show (1 : Fin S128x128.rank) ∈ dot_S10000x128_S128x128_S10000x128_1_0_0_1_n_n.rhsNonContracting by decide)]
  rfl

/-- The block product into the zero splat, at row `p`, column `q`: the sum over the 128 contracted positions. -/
theorem mm_apply (l : FVec Ideal S10000x128 .bf16) (r : FVec Ideal S128x128 .bf16) (p : Fin 10000) (q : Fin 128) :
    (matmul dot_S10000x128_S128x128_S10000x128_1_0_0_1_n_n none l r (constant (F := Ideal) S10000x128 .f32 0x00000000#32) : FVec Ideal S10000x128 .f32) (ix2 p q)
      = ∑ k : Fin 128, l (ix2 p k) * r (ix2 k q) := by
  simp only [matmul]
  rw [Ideal.matmul_constant_zero_apply, ← Equiv.sum_comp (contrEquiv1 dot_S10000x128_S128x128_S10000x128_1_0_0_1_n_n 128 rfl rfl).symm]
  refine Finset.sum_congr rfl fun k _ => ?_
  have hk := contrEquiv1_symm_val dot_S10000x128_S128x128_S10000x128_1_0_0_1_n_n 128 rfl rfl k
  have el : dot_S10000x128_S128x128_S10000x128_1_0_0_1_n_n.lhsIdx (ix2 p q) ((contrEquiv1 dot_S10000x128_S128x128_S10000x128_1_0_0_1_n_n 128 rfl rfl).symm k) = ix2 p k := funext fun a => Fin.ext (by
    match a with
    | ⟨0, _⟩ => exact lhs_mm_0 _ _
    | ⟨1, _⟩ => exact (lhs_mm_1 _ _).trans hk)
  have er : dot_S10000x128_S128x128_S10000x128_1_0_0_1_n_n.rhsIdx (ix2 p q) ((contrEquiv1 dot_S10000x128_S128x128_S10000x128_1_0_0_1_n_n 128 rfl rfl).symm k) = ix2 k q := funext fun a => Fin.ext (by
    match a with
    | ⟨0, _⟩ => exact (rhs_mm_0 _ _).trans hk
    | ⟨1, _⟩ => exact rhs_mm_1 _ _)
  rw [el, er]

/-! ## One block of the fused layer, index by index -/

/-- Row `s`, column `j` of a block's result: `max (∑ₖ x0[s,k] · x1[k,j] + x2[0,j]) 0`. -/
def blockValue (x0 : Vec Ideal S10000x128 .f32) (x1 : Vec Ideal S128x128 .f32) (x2 : Vec Ideal S1x128 .f32) : Vec Ideal S10000x128 .f32 :=
  fun j => max ((∑ k : Fin 128, (x0 (ix2 (j 0) k) : EReal) * (x1 (ix2 k (j 1)) : EReal)) + (x2 (ix2 0 (j 1)) : EReal)) 0

/-- The bias row repeated along the rows, at row `p`, column `q`. -/
theorem bias_apply (x2 : Vec Ideal S1x128 .f32) (p : Fin 10000) (q : Fin 128) :
    (broadcastTo S10000x128 (shapeCast S1x128 x2 shapeCasts_S1x128_S1x128) broadcasts_S1x128_S10000x128 : FVec Ideal S10000x128 .f32) (ix2 p q) = x2 (ix2 0 q) := by
  rw [shapeCast_self]
  refine broadcastTo_apply x2 broadcasts_S1x128_S10000x128 (ix2 p q) (ix2 0 q) fun a => ?_
  match a with
  | ⟨0, _⟩ => rfl
  | ⟨1, _⟩ => rfl

/-- The body's arithmetic at row `p`, column `q`: at the ideal values the format changes are the identity, the product
    into the zero splat is the sum over the contracted axis, and the two zero words are `0`. -/
theorem body_apply (x0 : Vec Ideal S10000x128 .f32) (x1 : Vec Ideal S128x128 .f32) (x2 : Vec Ideal S1x128 .f32) (p : Fin 10000) (q : Fin 128) :
    (maximumf (addf (matmul dot_S10000x128_S128x128_S10000x128_1_0_0_1_n_n none
          (truncf .bf16 (shapeCast S10000x128 x0 shapeCasts_S10000x128_S10000x128) bitsLt_bf16_f32) (truncf .bf16 x1 bitsLt_bf16_f32)
          (constant (F := Ideal) S10000x128 .f32 0x00000000#32))
        (broadcastTo S10000x128 (shapeCast S1x128 x2 shapeCasts_S1x128_S1x128) broadcasts_S1x128_S10000x128))
      (broadcast S10000x128 (Scalar.ofBits (F := Ideal) .f32 0x00000000#32)) : FVec Ideal S10000x128 .f32) (ix2 p q)
      = max ((∑ k : Fin 128, (x0 (ix2 p k) : EReal) * (x1 (ix2 k q) : EReal)) + (x2 (ix2 0 q) : EReal)) 0 := by
  rw [maximumf_apply, addf_apply, mm_apply, bias_apply, broadcast_apply, shapeCast_self]
  show max _ (Ideal.ofBits .f32 0x00000000#32) = _
  rw [Ideal.ofBits_zero_f32]
  rfl

theorem pay0_eq (x0 : Vec Ideal S10000x128 .f32) (x1 : Vec Ideal S128x128 .f32) (x2 : Vec Ideal S1x128 .f32) :
    k0_pay1 (F := Ideal) x0 x1 x2 = blockValue x0 x1 x2 := by
  funext j
  obtain ⟨p, q, rfl⟩ : ∃ (p : Fin 10000) (q : Fin 128), j = ix2 p q := ⟨j 0, j 1, eq_ix2 j⟩
  exact body_apply x0 x1 x2 p q

theorem pay1_eq (x0 : Vec Ideal S10000x128 .f32) (x1 : Vec Ideal S128x128 .f32) (x2 : Vec Ideal S1x128 .f32) :
    k1_pay1 (F := Ideal) x0 x1 x2 = blockValue x0 x1 x2 := by
  funext j
  obtain ⟨p, q, rfl⟩ : ∃ (p : Fin 10000) (q : Fin 128), j = ix2 p q := ⟨j 0, j 1, eq_ix2 j⟩
  exact body_apply x0 x1 x2 p q

theorem pay2_eq (x0 : Vec Ideal S10000x128 .f32) (x1 : Vec Ideal S128x128 .f32) (x2 : Vec Ideal S1x128 .f32) :
    k2_pay1 (F := Ideal) x0 x1 x2 = blockValue x0 x1 x2 := by
  funext j
  obtain ⟨p, q, rfl⟩ : ∃ (p : Fin 10000) (q : Fin 128), j = ix2 p q := ⟨j 0, j 1, eq_ix2 j⟩
  exact body_apply x0 x1 x2 p q

/-- A block's result is the whole-array function where the block sits: the hypotheses say which array entries the
    three blocks' entries are. -/
theorem blockValue_eq_mbr (x0 : Vec Ideal S10000x128 .f32) (x1 : Vec Ideal S128x128 .f32) (x2 : Vec Ideal S1x128 .f32)
    (a : S100000x128.Idx → Elt Ideal .f32) (W : S128x128.Idx → Elt Ideal .f32) (b : S1x128.Idx → Elt Ideal .f32)
    (y : S10000x128.Idx) (i : S100000x128.Idx)
    (h0 : ∀ k : Fin 128, x0 (ix2 (y 0) k) = a (ix2 (i 0) k))
    (h1 : ∀ k : Fin 128, x1 (ix2 k (y 1)) = W (ix2 k (i 1)))
    (h2 : x2 (ix2 0 (y 1)) = b (ix2 0 (i 1))) :
    blockValue x0 x1 x2 y = Cert.Gcn.mbr a W b i := by
  show max ((∑ k : Fin 128, (x0 (ix2 (y 0) k) : EReal) * (x1 (ix2 k (y 1)) : EReal)) + (x2 (ix2 0 (y 1)) : EReal)) 0
    = max ((∑ k : Fin 128, (a (ix2 (i 0) k) : EReal) * (W (ix2 k (i 1)) : EReal)) + (b (ix2 0 (i 1)) : EReal)) 0
  rw [h2, Finset.sum_congr rfl fun k _ => by rw [h0 k, h1 k]]

variable (V : (c : Dev nD) → (b : Ref sig .tc) → Buf (Elt Ideal) ((c : Thread nD τ).loc b))

/-! ## Launch 0 -/

/-- The printed index maps over the grid's ten points: the rows' window and the output move with the point, the weights
    and the bias row stay whole. -/
theorem idx_facts0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- The rows' block at point `t` is rows `10000·t … 10000·t + 9999` of its array. -/
theorem rows0_apply (c : Dev nD) (t : Fin cfg0.N) (y : S10000x128.Idx) (i : S100000x128.Idx)
    (h0 : (i 0).val = t.val * 10000 + (y 0).val) (h1 : (i 1).val = (y 1).val) :
    (iblk0 V c 0 t : Vec Ideal S10000x128 .f32) y = (V c main_v42 : S100000x128.Idx → Elt Ideal .f32) i := by
  obtain ⟨e0, e1, -, -, -, -, -, -⟩ := idx_facts0 t
  show V c main_v42 (((cfg0.win 0).blk t).view.emb y) = V c main_v42 i
  refine congrArg _ (funext fun d => Fin.ext ?_)
  match d with
  | ⟨0, _⟩ => show win0_0.index t (0 : Fin 2) * 10000 + 1 * (y 0).val = (i 0).val; omega
  | ⟨1, _⟩ => show win0_0.index t (1 : Fin 2) * 128 + 1 * (y 1).val = (i 1).val; omega

/-- The weights' block at every point is the whole array. -/
theorem weights0_apply (c : Dev nD) (t : Fin cfg0.N) (y : S128x128.Idx) (i : S128x128.Idx)
    (h0 : (i 0).val = (y 0).val) (h1 : (i 1).val = (y 1).val) :
    (iblk0 V c 1 t : Vec Ideal S128x128 .f32) y = (V c main_arg3 : S128x128.Idx → Elt Ideal .f32) i := by
  obtain ⟨-, -, e2, e3, -, -, -, -⟩ := idx_facts0 t
  show V c main_arg3 (((cfg0.win 1).blk t).view.emb y) = V c main_arg3 i
  refine congrArg _ (funext fun d => Fin.ext ?_)
  match d with
  | ⟨0, _⟩ => show win0_1.index t (0 : Fin 2) * 128 + 1 * (y 0).val = (i 0).val; omega
  | ⟨1, _⟩ => show win0_1.index t (1 : Fin 2) * 128 + 1 * (y 1).val = (i 1).val; omega

/-- The bias row's block at every point is the whole row. -/
theorem bias0_apply (c : Dev nD) (t : Fin cfg0.N) (y : S1x128.Idx) (i : S1x128.Idx)
    (h0 : (i 0).val = (y 0).val) (h1 : (i 1).val = (y 1).val) :
    (iblk0 V c 2 t : Vec Ideal S1x128 .f32) y = (V c main_v43 : S1x128.Idx → Elt Ideal .f32) i := by
  obtain ⟨-, -, -, -, e4, e5, -, -⟩ := idx_facts0 t
  show V c main_v43 (((cfg0.win 2).blk t).view.emb y) = V c main_v43 i
  refine congrArg _ (funext fun d => Fin.ext ?_)
  match d with
  | ⟨0, _⟩ => show win0_2.index t (0 : Fin 2) * 1 + 1 * (y 0).val = (i 0).val; omega
  | ⟨1, _⟩ => show win0_2.index t (1 : Fin 2) * 128 + 1 * (y 1).val = (i 1).val; omega

/-- What point `t` writes back is block `t` of the whole-array function of the arrays the launch finds. -/
theorem flushed0_eq (c : Dev nD) (t : Fin cfg0.N) :
    (dat0 (F := Ideal) V c).flushed 3 t
      = ((cfg0.win 3).blk t).view.read (Elt Ideal) (Cert.Gcn.mbr (V c main_v42) (V c main_arg3) (V c main_v43)) := by
  show (cfg0.win 3).cut (grid0.coords t) ((dat0 (F := Ideal) V c).after 3 t) = _
  rw [after0_3]
  unfold out0_3
  rw [View.canon_unit_zero zero2]
  simp only [View.ld_unit_zero (S := S10000x128) zero2, View.ld_unit_zero (S := S128x128) zero2, View.ld_unit_zero (S := S1x128) zero2]
  rw [pay0_eq]
  obtain ⟨-, -, -, -, -, -, e6, e7⟩ := idx_facts0 t
  funext j
  refine blockValue_eq_mbr (iblk0 V c 0 t) (iblk0 V c 1 t) (iblk0 V c 2 t) (V c main_v42) (V c main_arg3) (V c main_v43)
    ((cfg0.win 3).xinj (grid0.coords t) j) (((cfg0.win 3).blk t).view.emb j) (fun k => ?_) (fun k => ?_) ?_
  · refine rows0_apply V c t _ _ ?_ rfl
    show win0_3.index t (0 : Fin 2) * 10000 + 1 * (j 0).val = t.val * 10000 + (j 0).val
    omega
  · refine weights0_apply V c t _ _ rfl ?_
    show win0_3.index t (1 : Fin 2) * 128 + 1 * (j 1).val = (j 1).val
    omega
  · refine bias0_apply V c t _ _ rfl ?_
    show win0_3.index t (1 : Fin 2) * 128 + 1 * (j 1).val = (j 1).val
    omega

/-- An index of the output array is in point `t`'s block iff each coordinate is in the block's range on its axis. -/
theorem mem_blk0 (t : Fin cfg0.N) (i : S100000x128.Idx) :
    i ∈ ((cfg0.win 3).blk t).view.set ↔ ∀ d : Fin 2, win0_3.index t d * S10000x128.size d ≤ (i d).val ∧ (i d).val < win0_3.index t d * S10000x128.size d + S10000x128.size d := by
  show i ∈ ((View.whole main_v44).slice (win0_3.rect t)).set ↔ _
  rw [View.set_slice_whole, Rect.mem_set_unit]
  exact Iff.rfl

/-- Row `r` of the output is written by point `r / 10000`: the ten blocks cover the array. -/
theorem cover0 (i : S100000x128.Idx) :
    ∃ t : Fin cfg0.N, (cfg0.win 3).flush t = true ∧ i ∈ ((cfg0.win 3).blk t).view.set := by
  have hi0 : (i 0).val < 100000 := (i 0).isLt
  have hi1 : (i 1).val < 128 := (i 1).isLt
  have hN : grid0.N = 10 := N_0
  obtain ⟨t, ht⟩ : ∃ t : Fin cfg0.N, t.val = (i 0).val / 10000 := ⟨⟨(i 0).val / 10000, by show _ < grid0.N; omega⟩, rfl⟩
  obtain ⟨-, -, -, -, -, -, e6, e7⟩ := idx_facts0 t
  refine ⟨t, flush0_3 t, ?_⟩
  rw [mem_blk0]
  intro d
  match d with
  | ⟨0, _⟩ => show win0_3.index t (0 : Fin 2) * 10000 ≤ (i 0).val ∧ (i 0).val < win0_3.index t (0 : Fin 2) * 10000 + 10000; omega
  | ⟨1, _⟩ => show win0_3.index t (1 : Fin 2) * 128 ≤ (i 1).val ∧ (i 1).val < win0_3.index t (1 : Fin 2) * 128 + 128; omega

/-- Launch 0 (layer 1): the output array after the run. -/
theorem value0 (c : Dev nD) :
    (dat0 (F := Ideal) V c).arrAt 3 cfg0.N = Cert.Gcn.mbr (V c main_v42) (V c main_arg3) (V c main_v43) :=
  (dat0 (F := Ideal) V c).arrAt_eq_of_cover 3 (Cert.Gcn.mbr (V c main_v42) (V c main_arg3) (V c main_v43))
    (fun t _ => flushed0_eq V c t) cover0

/-! ## Launch 1 -/

/-- The printed index maps over the grid's ten points: the rows' window and the output move with the point, the weights
    and the bias row stay whole. -/
theorem idx_facts1 : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

/-- The rows' block at point `t` is rows `10000·t … 10000·t + 9999` of its array. -/
theorem rows1_apply (c : Dev nD) (t : Fin cfg1.N) (y : S10000x128.Idx) (i : S100000x128.Idx)
    (h0 : (i 0).val = t.val * 10000 + (y 0).val) (h1 : (i 1).val = (y 1).val) :
    (iblk1 V c 0 t : Vec Ideal S10000x128 .f32) y = (V c main_v57 : S100000x128.Idx → Elt Ideal .f32) i := by
  obtain ⟨e0, e1, -, -, -, -, -, -⟩ := idx_facts1 t
  show V c main_v57 (((cfg1.win 0).blk t).view.emb y) = V c main_v57 i
  refine congrArg _ (funext fun d => Fin.ext ?_)
  match d with
  | ⟨0, _⟩ => show win1_0.index t (0 : Fin 2) * 10000 + 1 * (y 0).val = (i 0).val; omega
  | ⟨1, _⟩ => show win1_0.index t (1 : Fin 2) * 128 + 1 * (y 1).val = (i 1).val; omega

/-- The weights' block at every point is the whole array. -/
theorem weights1_apply (c : Dev nD) (t : Fin cfg1.N) (y : S128x128.Idx) (i : S128x128.Idx)
    (h0 : (i 0).val = (y 0).val) (h1 : (i 1).val = (y 1).val) :
    (iblk1 V c 1 t : Vec Ideal S128x128 .f32) y = (V c main_arg5 : S128x128.Idx → Elt Ideal .f32) i := by
  obtain ⟨-, -, e2, e3, -, -, -, -⟩ := idx_facts1 t
  show V c main_arg5 (((cfg1.win 1).blk t).view.emb y) = V c main_arg5 i
  refine congrArg _ (funext fun d => Fin.ext ?_)
  match d with
  | ⟨0, _⟩ => show win1_1.index t (0 : Fin 2) * 128 + 1 * (y 0).val = (i 0).val; omega
  | ⟨1, _⟩ => show win1_1.index t (1 : Fin 2) * 128 + 1 * (y 1).val = (i 1).val; omega

/-- The bias row's block at every point is the whole row. -/
theorem bias1_apply (c : Dev nD) (t : Fin cfg1.N) (y : S1x128.Idx) (i : S1x128.Idx)
    (h0 : (i 0).val = (y 0).val) (h1 : (i 1).val = (y 1).val) :
    (iblk1 V c 2 t : Vec Ideal S1x128 .f32) y = (V c main_v58 : S1x128.Idx → Elt Ideal .f32) i := by
  obtain ⟨-, -, -, -, e4, e5, -, -⟩ := idx_facts1 t
  show V c main_v58 (((cfg1.win 2).blk t).view.emb y) = V c main_v58 i
  refine congrArg _ (funext fun d => Fin.ext ?_)
  match d with
  | ⟨0, _⟩ => show win1_2.index t (0 : Fin 2) * 1 + 1 * (y 0).val = (i 0).val; omega
  | ⟨1, _⟩ => show win1_2.index t (1 : Fin 2) * 128 + 1 * (y 1).val = (i 1).val; omega

/-- What point `t` writes back is block `t` of the whole-array function of the arrays the launch finds. -/
theorem flushed1_eq (c : Dev nD) (t : Fin cfg1.N) :
    (dat1 (F := Ideal) V c).flushed 3 t
      = ((cfg1.win 3).blk t).view.read (Elt Ideal) (Cert.Gcn.mbr (V c main_v57) (V c main_arg5) (V c main_v58)) := by
  show (cfg1.win 3).cut (grid1.coords t) ((dat1 (F := Ideal) V c).after 3 t) = _
  rw [after1_3]
  unfold out1_3
  rw [View.canon_unit_zero zero2]
  simp only [View.ld_unit_zero (S := S10000x128) zero2, View.ld_unit_zero (S := S128x128) zero2, View.ld_unit_zero (S := S1x128) zero2]
  rw [pay1_eq]
  obtain ⟨-, -, -, -, -, -, e6, e7⟩ := idx_facts1 t
  funext j
  refine blockValue_eq_mbr (iblk1 V c 0 t) (iblk1 V c 1 t) (iblk1 V c 2 t) (V c main_v57) (V c main_arg5) (V c main_v58)
    ((cfg1.win 3).xinj (grid1.coords t) j) (((cfg1.win 3).blk t).view.emb j) (fun k => ?_) (fun k => ?_) ?_
  · refine rows1_apply V c t _ _ ?_ rfl
    show win1_3.index t (0 : Fin 2) * 10000 + 1 * (j 0).val = t.val * 10000 + (j 0).val
    omega
  · refine weights1_apply V c t _ _ rfl ?_
    show win1_3.index t (1 : Fin 2) * 128 + 1 * (j 1).val = (j 1).val
    omega
  · refine bias1_apply V c t _ _ rfl ?_
    show win1_3.index t (1 : Fin 2) * 128 + 1 * (j 1).val = (j 1).val
    omega

/-- An index of the output array is in point `t`'s block iff each coordinate is in the block's range on its axis. -/
theorem mem_blk1 (t : Fin cfg1.N) (i : S100000x128.Idx) :
    i ∈ ((cfg1.win 3).blk t).view.set ↔ ∀ d : Fin 2, win1_3.index t d * S10000x128.size d ≤ (i d).val ∧ (i d).val < win1_3.index t d * S10000x128.size d + S10000x128.size d := by
  show i ∈ ((View.whole main_v59).slice (win1_3.rect t)).set ↔ _
  rw [View.set_slice_whole, Rect.mem_set_unit]
  exact Iff.rfl

/-- Row `r` of the output is written by point `r / 10000`: the ten blocks cover the array. -/
theorem cover1 (i : S100000x128.Idx) :
    ∃ t : Fin cfg1.N, (cfg1.win 3).flush t = true ∧ i ∈ ((cfg1.win 3).blk t).view.set := by
  have hi0 : (i 0).val < 100000 := (i 0).isLt
  have hi1 : (i 1).val < 128 := (i 1).isLt
  have hN : grid1.N = 10 := N_1
  obtain ⟨t, ht⟩ : ∃ t : Fin cfg1.N, t.val = (i 0).val / 10000 := ⟨⟨(i 0).val / 10000, by show _ < grid1.N; omega⟩, rfl⟩
  obtain ⟨-, -, -, -, -, -, e6, e7⟩ := idx_facts1 t
  refine ⟨t, flush1_3 t, ?_⟩
  rw [mem_blk1]
  intro d
  match d with
  | ⟨0, _⟩ => show win1_3.index t (0 : Fin 2) * 10000 ≤ (i 0).val ∧ (i 0).val < win1_3.index t (0 : Fin 2) * 10000 + 10000; omega
  | ⟨1, _⟩ => show win1_3.index t (1 : Fin 2) * 128 ≤ (i 1).val ∧ (i 1).val < win1_3.index t (1 : Fin 2) * 128 + 128; omega

/-- Launch 1 (layer 2). -/
theorem value1 (c : Dev nD) :
    (dat1 (F := Ideal) V c).arrAt 3 cfg1.N = Cert.Gcn.mbr (V c main_v57) (V c main_arg5) (V c main_v58) :=
  (dat1 (F := Ideal) V c).arrAt_eq_of_cover 3 (Cert.Gcn.mbr (V c main_v57) (V c main_arg5) (V c main_v58))
    (fun t _ => flushed1_eq V c t) cover1

/-! ## Launch 2 -/

/-- The printed index maps over the grid's ten points: the rows' window and the output move with the point, the weights
    and the bias row stay whole. -/
theorem idx_facts2 : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = t.val ∧ win2_3.index t (1 : Fin 2) = 0 :=
  (by decide +kernel : ∀ t : Fin grid2.N, _)

/-- The rows' block at point `t` is rows `10000·t … 10000·t + 9999` of its array. -/
theorem rows2_apply (c : Dev nD) (t : Fin cfg2.N) (y : S10000x128.Idx) (i : S100000x128.Idx)
    (h0 : (i 0).val = t.val * 10000 + (y 0).val) (h1 : (i 1).val = (y 1).val) :
    (iblk2 V c 0 t : Vec Ideal S10000x128 .f32) y = (V c main_v72 : S100000x128.Idx → Elt Ideal .f32) i := by
  obtain ⟨e0, e1, -, -, -, -, -, -⟩ := idx_facts2 t
  show V c main_v72 (((cfg2.win 0).blk t).view.emb y) = V c main_v72 i
  refine congrArg _ (funext fun d => Fin.ext ?_)
  match d with
  | ⟨0, _⟩ => show win2_0.index t (0 : Fin 2) * 10000 + 1 * (y 0).val = (i 0).val; omega
  | ⟨1, _⟩ => show win2_0.index t (1 : Fin 2) * 128 + 1 * (y 1).val = (i 1).val; omega

/-- The weights' block at every point is the whole array. -/
theorem weights2_apply (c : Dev nD) (t : Fin cfg2.N) (y : S128x128.Idx) (i : S128x128.Idx)
    (h0 : (i 0).val = (y 0).val) (h1 : (i 1).val = (y 1).val) :
    (iblk2 V c 1 t : Vec Ideal S128x128 .f32) y = (V c main_arg7 : S128x128.Idx → Elt Ideal .f32) i := by
  obtain ⟨-, -, e2, e3, -, -, -, -⟩ := idx_facts2 t
  show V c main_arg7 (((cfg2.win 1).blk t).view.emb y) = V c main_arg7 i
  refine congrArg _ (funext fun d => Fin.ext ?_)
  match d with
  | ⟨0, _⟩ => show win2_1.index t (0 : Fin 2) * 128 + 1 * (y 0).val = (i 0).val; omega
  | ⟨1, _⟩ => show win2_1.index t (1 : Fin 2) * 128 + 1 * (y 1).val = (i 1).val; omega

/-- The bias row's block at every point is the whole row. -/
theorem bias2_apply (c : Dev nD) (t : Fin cfg2.N) (y : S1x128.Idx) (i : S1x128.Idx)
    (h0 : (i 0).val = (y 0).val) (h1 : (i 1).val = (y 1).val) :
    (iblk2 V c 2 t : Vec Ideal S1x128 .f32) y = (V c main_v73 : S1x128.Idx → Elt Ideal .f32) i := by
  obtain ⟨-, -, -, -, e4, e5, -, -⟩ := idx_facts2 t
  show V c main_v73 (((cfg2.win 2).blk t).view.emb y) = V c main_v73 i
  refine congrArg _ (funext fun d => Fin.ext ?_)
  match d with
  | ⟨0, _⟩ => show win2_2.index t (0 : Fin 2) * 1 + 1 * (y 0).val = (i 0).val; omega
  | ⟨1, _⟩ => show win2_2.index t (1 : Fin 2) * 128 + 1 * (y 1).val = (i 1).val; omega

/-- What point `t` writes back is block `t` of the whole-array function of the arrays the launch finds. -/
theorem flushed2_eq (c : Dev nD) (t : Fin cfg2.N) :
    (dat2 (F := Ideal) V c).flushed 3 t
      = ((cfg2.win 3).blk t).view.read (Elt Ideal) (Cert.Gcn.mbr (V c main_v72) (V c main_arg7) (V c main_v73)) := by
  show (cfg2.win 3).cut (grid2.coords t) ((dat2 (F := Ideal) V c).after 3 t) = _
  rw [after2_3]
  unfold out2_3
  rw [View.canon_unit_zero zero2]
  simp only [View.ld_unit_zero (S := S10000x128) zero2, View.ld_unit_zero (S := S128x128) zero2, View.ld_unit_zero (S := S1x128) zero2]
  rw [pay2_eq]
  obtain ⟨-, -, -, -, -, -, e6, e7⟩ := idx_facts2 t
  funext j
  refine blockValue_eq_mbr (iblk2 V c 0 t) (iblk2 V c 1 t) (iblk2 V c 2 t) (V c main_v72) (V c main_arg7) (V c main_v73)
    ((cfg2.win 3).xinj (grid2.coords t) j) (((cfg2.win 3).blk t).view.emb j) (fun k => ?_) (fun k => ?_) ?_
  · refine rows2_apply V c t _ _ ?_ rfl
    show win2_3.index t (0 : Fin 2) * 10000 + 1 * (j 0).val = t.val * 10000 + (j 0).val
    omega
  · refine weights2_apply V c t _ _ rfl ?_
    show win2_3.index t (1 : Fin 2) * 128 + 1 * (j 1).val = (j 1).val
    omega
  · refine bias2_apply V c t _ _ rfl ?_
    show win2_3.index t (1 : Fin 2) * 128 + 1 * (j 1).val = (j 1).val
    omega

/-- An index of the output array is in point `t`'s block iff each coordinate is in the block's range on its axis. -/
theorem mem_blk2 (t : Fin cfg2.N) (i : S100000x128.Idx) :
    i ∈ ((cfg2.win 3).blk t).view.set ↔ ∀ d : Fin 2, win2_3.index t d * S10000x128.size d ≤ (i d).val ∧ (i d).val < win2_3.index t d * S10000x128.size d + S10000x128.size d := by
  show i ∈ ((View.whole main_v74).slice (win2_3.rect t)).set ↔ _
  rw [View.set_slice_whole, Rect.mem_set_unit]
  exact Iff.rfl

/-- Row `r` of the output is written by point `r / 10000`: the ten blocks cover the array. -/
theorem cover2 (i : S100000x128.Idx) :
    ∃ t : Fin cfg2.N, (cfg2.win 3).flush t = true ∧ i ∈ ((cfg2.win 3).blk t).view.set := by
  have hi0 : (i 0).val < 100000 := (i 0).isLt
  have hi1 : (i 1).val < 128 := (i 1).isLt
  have hN : grid2.N = 10 := N_2
  obtain ⟨t, ht⟩ : ∃ t : Fin cfg2.N, t.val = (i 0).val / 10000 := ⟨⟨(i 0).val / 10000, by show _ < grid2.N; omega⟩, rfl⟩
  obtain ⟨-, -, -, -, -, -, e6, e7⟩ := idx_facts2 t
  refine ⟨t, flush2_3 t, ?_⟩
  rw [mem_blk2]
  intro d
  match d with
  | ⟨0, _⟩ => show win2_3.index t (0 : Fin 2) * 10000 ≤ (i 0).val ∧ (i 0).val < win2_3.index t (0 : Fin 2) * 10000 + 10000; omega
  | ⟨1, _⟩ => show win2_3.index t (1 : Fin 2) * 128 ≤ (i 1).val ∧ (i 1).val < win2_3.index t (1 : Fin 2) * 128 + 128; omega

/-- Launch 2 (layer 3). -/
theorem value2 (c : Dev nD) :
    (dat2 (F := Ideal) V c).arrAt 3 cfg2.N = Cert.Gcn.mbr (V c main_v72) (V c main_arg7) (V c main_v73) :=
  (dat2 (F := Ideal) V c).arrAt_eq_of_cover 3 (Cert.Gcn.mbr (V c main_v72) (V c main_arg7) (V c main_v73))
    (fun t _ => flushed2_eq V c t) cover2

end Cert.KernelIdeal.Region

end
-- ==== Proof.KValue.lean ====
/-
  The kernel's program followed from the launch to the return: the contents of the buffers at each boundary between a
  stretch of host operations and a launch, each read back to the launch contents of the arguments. The last boundary
  gives the result buffer: the specification's `resultK`.
-/
import proofs.«177310_j64639257805082_1_alg».proof.Proof.KStretch
import proofs.«177310_j64639257805082_1_alg».proof.Proof.Region

set_option maxRecDepth 16384

noncomputable section

namespace Cert.KernelIdeal.KV

open Cert.KernelIdeal Cert.KernelIdeal.Gen Idealize.ShloMosaic Idealize.ShloMosaic.TcCoe Idealize.SL.Sem Idealize.ShloMosaic.StableHlo

section Levels

variable [Cert.ReferenceIdeal.Facts]
variable (m : (ℓ : Loc nD τ sig) → Buf (Elt Ideal) ℓ) (ρ : Dev nD → PrngReg) (c : Dev nD)

/-- An argument as launched. -/
abbrev arg (b : Ref sig .tc) : Buf (Elt Ideal) ((c : Thread nD τ).loc b) := m ((c : Thread nD τ).loc b)

/-- The look-up indices, the sum indices and the message weights, of the launched `edge_index`. -/
abbrev sI := Cert.Gcn.srcIdx (F := Ideal) (arg m c main_arg1)
abbrev dI := Cert.Gcn.dstIdx (F := Ideal) (arg m c main_arg1)
abbrev nM := Cert.Gcn.norm (F := Ideal) (arg m c main_arg1)
/-- The three layers' outputs. -/
abbrev h1 := Cert.Gcn.layerK (sI m c) (dI m c) (nM m c) (arg m c main_arg0) (arg m c main_arg3) (KBias.biasRow (F := Ideal) (arg m c main_arg4))
abbrev h2 := Cert.Gcn.layerK (sI m c) (dI m c) (nM m c) (h1 m c) (arg m c main_arg5) (KBias.biasRow (F := Ideal) (arg m c main_arg6))
abbrev h3 := Cert.Gcn.layerK (sI m c) (dI m c) (nM m c) (h2 m c) (arg m c main_arg7) (KBias.biasRow (F := Ideal) (arg m c main_arg8))

/-! ## The contents at each boundary of the run, read back to the launch memory

`W0` is the launch memory; `W1 W2 W3` follow the three stretches before the first launch; `W4` the first launch;
`W5` the stretch after it; and so on to `W9`. An argument, an index vector and the weights keep their contents from
where they are made to where they are last read. -/

theorem W1_arg (b : Ref sig .tc) (hb : b ∈ argRefs) : W1 m ρ c (Proc.devRef .tc b) = arg m c b :=
  keep0 (W0 m ρ c) b hb
theorem W1_v5 : W1 m ρ c (Proc.devRef .tc main_v5) = Cert.Gcn.srcW (F := Ideal) (arg m c main_arg1) := s0_v5 (W0 m ρ c)
theorem W1_v6 : W1 m ρ c (Proc.devRef .tc main_v6) = Cert.Gcn.dstW (F := Ideal) (arg m c main_arg1) := s0_v6 (W0 m ρ c)

theorem W2_arg (b : Ref sig .tc) (hb : b ∈ argRefs) : W2 m ρ c (Proc.devRef .tc b) = arg m c b :=
  (keep01 (W1 m ρ c) b (List.mem_cons_of_mem _ (List.mem_cons_of_mem _ hb))).trans (W1_arg m ρ c b hb)
theorem W2_v5 : W2 m ρ c (Proc.devRef .tc main_v5) = Cert.Gcn.srcW (F := Ideal) (arg m c main_arg1) :=
  (keep01 (W1 m ρ c) main_v5 (by decide)).trans (W1_v5 m ρ c)
theorem W2_v6 : W2 m ρ c (Proc.devRef .tc main_v6) = Cert.Gcn.dstW (F := Ideal) (arg m c main_arg1) :=
  (keep01 (W1 m ρ c) main_v6 (by decide)).trans (W1_v6 m ρ c)
theorem W2_v14 : W2 m ρ c (Proc.devRef .tc main_v14) = Cert.Gcn.dis (F := Ideal) (arg m c main_arg1) := by
  show StableHlo.after hostOps0_1 (W1 m ρ c) (Proc.devRef .tc main_v14) = _
  rw [s01_v14 (W1 m ρ c)]
  show select (StableHlo.after hostOps0 (W0 m ρ c) (Proc.devRef .tc main_v12)) (StableHlo.after hostOps0 (W0 m ρ c) (Proc.devRef .tc main_v13))
      (broadcastInDim Cert.ReferenceIdeal.S100000 ![] Cert.ReferenceIdeal.Facts₀.bcast_S_S100000
        (id (StableHlo.after hostOps0 (W0 m ρ c) (Proc.devRef .tc main_cst_2)))) = _
  rw [s0_v12 (W0 m ρ c), s0_v13 (W0 m ρ c), s0_cst2 (W0 m ρ c)]
  rfl

theorem W3_arg (b : Ref sig .tc) (hb : b ∈ argRefs) : W3 m ρ c (Proc.devRef .tc b) = arg m c b :=
  (keep02 (W2 m ρ c) b (List.mem_cons_of_mem _ (List.mem_cons_of_mem _ hb))).trans (W2_arg m ρ c b hb)
theorem W3_v5 : W3 m ρ c (Proc.devRef .tc main_v5) = Cert.Gcn.srcW (F := Ideal) (arg m c main_arg1) :=
  (keep02 (W2 m ρ c) main_v5 (by decide)).trans (W2_v5 m ρ c)
theorem W3_v6 : W3 m ρ c (Proc.devRef .tc main_v6) = Cert.Gcn.dstW (F := Ideal) (arg m c main_arg1) :=
  (keep02 (W2 m ρ c) main_v6 (by decide)).trans (W2_v6 m ρ c)
theorem W3_v29 : W3 m ρ c (Proc.devRef .tc main_v29) = nM m c := by
  show StableHlo.after hostOps0_2 (W2 m ρ c) (Proc.devRef .tc main_v29) = _
  rw [s02_v29 (W2 m ρ c), W2_v14, W2_v5, W2_v6]
  rfl
theorem W3_v42 : W3 m ρ c (Proc.devRef .tc main_v42) = Cert.Gcn.segsum (F := Ideal) (sI m c) (dI m c) (nM m c) (arg m c main_arg0) := by
  show StableHlo.after hostOps0_2 (W2 m ρ c) (Proc.devRef .tc main_v42) = _
  rw [s02_v42 (W2 m ρ c), W2_v14, W2_v5, W2_v6, W2_arg m ρ c main_arg0 (by decide)]
  rfl
theorem W3_v43 : W3 m ρ c (Proc.devRef .tc main_v43) = KBias.biasRow (F := Ideal) (arg m c main_arg4) := by
  show StableHlo.after hostOps0_2 (W2 m ρ c) (Proc.devRef .tc main_v43) = _
  rw [s02_v43 (W2 m ρ c), W2_arg m ρ c main_arg4 (by decide)]

theorem W4_arg (b : Ref sig .tc) (hb : b ∈ argRefs) (h0 : ∀ w, Pipeline.arrRef spec0 w ≠ b) :
    W4 m ρ c (Proc.devRef .tc b) = arg m c b :=
  (W4_of_ne m ρ c b h0).trans (W3_arg m ρ c b hb)
theorem W4_v5 : W4 m ρ c (Proc.devRef .tc main_v5) = Cert.Gcn.srcW (F := Ideal) (arg m c main_arg1) :=
  (W4_of_ne m ρ c main_v5 (by decide)).trans (W3_v5 m ρ c)
theorem W4_v6 : W4 m ρ c (Proc.devRef .tc main_v6) = Cert.Gcn.dstW (F := Ideal) (arg m c main_arg1) :=
  (W4_of_ne m ρ c main_v6 (by decide)).trans (W3_v6 m ρ c)
theorem W4_v29 : W4 m ρ c (Proc.devRef .tc main_v29) = nM m c :=
  (W4_of_ne m ρ c main_v29 (by decide)).trans (W3_v29 m ρ c)
/-- After the first launch: layer 1's output. -/
theorem W4_v44 : W4 m ρ c (Proc.devRef .tc main_v44) = h1 m c := by
  show W4 m ρ c (Proc.devRef .tc (Pipeline.arrRef spec0 3)) = _
  rw [W4_arr m ρ c 3, Cert.KernelIdeal.Region.value0 (V3 m ρ) c]
  show Cert.Gcn.mbr (W3 m ρ c (Proc.devRef .tc main_v42)) (W3 m ρ c (Proc.devRef .tc main_arg3)) (W3 m ρ c (Proc.devRef .tc main_v43)) = _
  rw [W3_v42, W3_arg m ρ c main_arg3 (by decide), W3_v43]
  rfl

theorem W5_arg (b : Ref sig .tc) (hb : b ∈ argRefs) (h0 : ∀ w, Pipeline.arrRef spec0 w ≠ b) :
    W5 m ρ c (Proc.devRef .tc b) = arg m c b :=
  (keep1 (W4 m ρ c) b (List.mem_cons_of_mem _ (List.mem_cons_of_mem _ (List.mem_cons_of_mem _ hb)))).trans (W4_arg m ρ c b hb h0)
theorem W5_v5 : W5 m ρ c (Proc.devRef .tc main_v5) = Cert.Gcn.srcW (F := Ideal) (arg m c main_arg1) :=
  (keep1 (W4 m ρ c) main_v5 (by decide)).trans (W4_v5 m ρ c)
theorem W5_v6 : W5 m ρ c (Proc.devRef .tc main_v6) = Cert.Gcn.dstW (F := Ideal) (arg m c main_arg1) :=
  (keep1 (W4 m ρ c) main_v6 (by decide)).trans (W4_v6 m ρ c)
theorem W5_v29 : W5 m ρ c (Proc.devRef .tc main_v29) = nM m c :=
  (keep1 (W4 m ρ c) main_v29 (by decide)).trans (W4_v29 m ρ c)
theorem W5_v57 : W5 m ρ c (Proc.devRef .tc main_v57) = Cert.Gcn.segsum (F := Ideal) (sI m c) (dI m c) (nM m c) (h1 m c) := by
  show StableHlo.after hostOps1 (W4 m ρ c) (Proc.devRef .tc main_v57) = _
  rw [s1_v57 (W4 m ρ c), W4_v5, W4_v6, W4_v29, W4_v44]
  rfl
theorem W5_v58 : W5 m ρ c (Proc.devRef .tc main_v58) = KBias.biasRow (F := Ideal) (arg m c main_arg6) := by
  show StableHlo.after hostOps1 (W4 m ρ c) (Proc.devRef .tc main_v58) = _
  rw [s1_v58 (W4 m ρ c), W4_arg m ρ c main_arg6 (by decide) (by decide)]

theorem W6_arg (b : Ref sig .tc) (hb : b ∈ argRefs) (h0 : ∀ w, Pipeline.arrRef spec0 w ≠ b) (h1 : ∀ w, Pipeline.arrRef spec1 w ≠ b) :
    W6 m ρ c (Proc.devRef .tc b) = arg m c b :=
  (W6_of_ne m ρ c b h1).trans (W5_arg m ρ c b hb h0)
theorem W6_v5 : W6 m ρ c (Proc.devRef .tc main_v5) = Cert.Gcn.srcW (F := Ideal) (arg m c main_arg1) :=
  (W6_of_ne m ρ c main_v5 (by decide)).trans (W5_v5 m ρ c)
theorem W6_v6 : W6 m ρ c (Proc.devRef .tc main_v6) = Cert.Gcn.dstW (F := Ideal) (arg m c main_arg1) :=
  (W6_of_ne m ρ c main_v6 (by decide)).trans (W5_v6 m ρ c)
theorem W6_v29 : W6 m ρ c (Proc.devRef .tc main_v29) = nM m c :=
  (W6_of_ne m ρ c main_v29 (by decide)).trans (W5_v29 m ρ c)
/-- After the second launch: layer 2's output. -/
theorem W6_v59 : W6 m ρ c (Proc.devRef .tc main_v59) = h2 m c := by
  show W6 m ρ c (Proc.devRef .tc (Pipeline.arrRef spec1 3)) = _
  rw [W6_arr m ρ c 3, Cert.KernelIdeal.Region.value1 (V5 m ρ) c]
  show Cert.Gcn.mbr (W5 m ρ c (Proc.devRef .tc main_v57)) (W5 m ρ c (Proc.devRef .tc main_arg5)) (W5 m ρ c (Proc.devRef .tc main_v58)) = _
  rw [W5_v57, W5_arg m ρ c main_arg5 (by decide) (by decide), W5_v58]
  rfl

theorem W7_arg (b : Ref sig .tc) (hb : b ∈ argRefs) (h0 : ∀ w, Pipeline.arrRef spec0 w ≠ b) (h1 : ∀ w, Pipeline.arrRef spec1 w ≠ b) :
    W7 m ρ c (Proc.devRef .tc b) = arg m c b :=
  (keep2 (W6 m ρ c) b hb).trans (W6_arg m ρ c b hb h0 h1)
theorem W7_v72 : W7 m ρ c (Proc.devRef .tc main_v72) = Cert.Gcn.segsum (F := Ideal) (sI m c) (dI m c) (nM m c) (h2 m c) := by
  show StableHlo.after hostOps2 (W6 m ρ c) (Proc.devRef .tc main_v72) = _
  rw [s2_v72 (W6 m ρ c), W6_v5, W6_v6, W6_v29, W6_v59]
  rfl
theorem W7_v73 : W7 m ρ c (Proc.devRef .tc main_v73) = KBias.biasRow (F := Ideal) (arg m c main_arg8) := by
  show StableHlo.after hostOps2 (W6 m ρ c) (Proc.devRef .tc main_v73) = _
  rw [s2_v73 (W6 m ρ c), W6_arg m ρ c main_arg8 (by decide) (by decide) (by decide)]

theorem W8_arg (b : Ref sig .tc) (hb : b ∈ argRefs) (h0 : ∀ w, Pipeline.arrRef spec0 w ≠ b) (h1 : ∀ w, Pipeline.arrRef spec1 w ≠ b)
    (h2 : ∀ w, Pipeline.arrRef spec2 w ≠ b) : W8 m ρ c (Proc.devRef .tc b) = arg m c b :=
  (W8_of_ne m ρ c b h2).trans (W7_arg m ρ c b hb h0 h1)
/-- After the third launch: layer 3's output. -/
theorem W8_v74 : W8 m ρ c (Proc.devRef .tc main_v74) = h3 m c := by
  show W8 m ρ c (Proc.devRef .tc (Pipeline.arrRef spec2 3)) = _
  rw [W8_arr m ρ c 3, Cert.KernelIdeal.Region.value2 (V7 m ρ) c]
  show Cert.Gcn.mbr (W7 m ρ c (Proc.devRef .tc main_v72)) (W7 m ρ c (Proc.devRef .tc main_arg7)) (W7 m ρ c (Proc.devRef .tc main_v73)) = _
  rw [W7_v72, W7_arg m ρ c main_arg7 (by decide) (by decide) (by decide), W7_v73]
  rfl

/-- THE KERNEL'S RESULT BUFFER at the end of the run is the specification's `resultK` of the launch contents of the
    arguments, the three biases as one-row tables. -/
theorem W9_v90 : W9 m ρ c (Proc.devRef .tc main_v90)
    = Cert.Gcn.resultK (m ((c : Thread nD τ).loc main_arg0)) (m ((c : Thread nD τ).loc main_arg1)) (m ((c : Thread nD τ).loc main_arg2)) (m ((c : Thread nD τ).loc main_arg3))
        (KBias.biasRow (F := Ideal) (m ((c : Thread nD τ).loc main_arg4))) (m ((c : Thread nD τ).loc main_arg5)) (KBias.biasRow (F := Ideal) (m ((c : Thread nD τ).loc main_arg6)))
        (m ((c : Thread nD τ).loc main_arg7)) (KBias.biasRow (F := Ideal) (m ((c : Thread nD τ).loc main_arg8))) (m ((c : Thread nD τ).loc main_arg9)) (m ((c : Thread nD τ).loc main_arg10)) := by
  show StableHlo.after hostOps3 (W8 m ρ c) (Proc.devRef .tc main_v90) = _
  rw [s3_v90 (W8 m ρ c), W8_v74, W8_arg m ρ c main_arg2 (by decide) (by decide) (by decide) (by decide),
    W8_arg m ρ c main_arg9 (by decide) (by decide) (by decide) (by decide),
    W8_arg m ρ c main_arg10 (by decide) (by decide) (by decide) (by decide)]
  rfl

end Levels

end Cert.KernelIdeal.KV

end
-- ==== Proof.RValue.lean ====
/-
  The reference's composed result term is the specification's `resultR` of the launch contents of the arguments:
  the same operations in the same order, the shared stages named.
-/
import proofs.«177310_j64639257805082_1_alg».proof.Proof.RefRun
import proofs.«177310_j64639257805082_1_alg».proof.Proof.Spec

noncomputable section

namespace Cert.ReferenceIdeal.RValue

open Cert.ReferenceIdeal Cert.ReferenceIdeal.Gen Idealize.ShloMosaic Idealize.ShloMosaic.TcCoe Idealize.SL.Sem

variable {F : FTy → Type} [FloatOps F]

set_option maxRecDepth 8192 in
/-- What the reference leaves in its result buffer, as the specification's function of the arguments. -/
theorem res_eq (m : (ℓ : Loc nD τ sig) → Buf (Elt F) ℓ) (c : Dev nD) :
    Cert.ReferenceIdeal.ValueP.res_main_v99 (F := F) m c
      = Cert.Gcn.resultR (F := F) (m ((c.tc : Thread nD τ).loc main_arg0)) (m ((c.tc : Thread nD τ).loc main_arg1))
          (m ((c.tc : Thread nD τ).loc main_arg2)) (m ((c.tc : Thread nD τ).loc main_arg3)) (m ((c.tc : Thread nD τ).loc main_arg4))
          (m ((c.tc : Thread nD τ).loc main_arg5)) (m ((c.tc : Thread nD τ).loc main_arg6)) (m ((c.tc : Thread nD τ).loc main_arg7))
          (m ((c.tc : Thread nD τ).loc main_arg8)) (m ((c.tc : Thread nD τ).loc main_arg9)) (m ((c.tc : Thread nD τ).loc main_arg10)) := by
  unfold Cert.ReferenceIdeal.ValueP.res_main_v99 Cert.Gcn.resultR Cert.Gcn.tail Cert.Gcn.cntB Cert.Gcn.layerR Cert.Gcn.biasB
    Cert.Gcn.segsum Cert.Gcn.zerosX Cert.Gcn.normB Cert.Gcn.norm Cert.Gcn.dis Cert.Gcn.deg Cert.Gcn.srcIdx Cert.Gcn.dstIdxW Cert.Gcn.dstIdx
    Cert.Gcn.wrapW Cert.Gcn.colIdx Cert.Gcn.srcW Cert.Gcn.dstW Cert.Gcn.edgeRow0 Cert.Gcn.edgeRow1 Cert.Gcn.selfLoops Cert.Gcn.zeroS Cert.Gcn.oneS
  rfl

end Cert.ReferenceIdeal.RValue

end
-- ==== Proof.LibGS.lean ====
/-
  Three index-level readings of the host's gather and accumulating scatter, for the dimension numbers of a row
  lookup `table[idx]` and of the segment sums `zeros.at[idx].add(updates)` over rows and over scalars.

  * rows gather: entry `(e, k)` of the result is the table's entry `(r, k)`, `r` the start word of edge `e` read
    signed, negative words sent to row 0, clipped to the last row;
  * rows scatter-add: entry `(s, k)` of the result is the operand's entry plus the sum of the updates' entries
    `(e, k)` over the edges `e` whose start word, read signed and not clipped, is `s`;
  * vector scatter-add: the same with scalars in place of rows.

  Each is stated over the record given by its literal fields, with the well-formedness proof a variable, so that it
  applies to any program's record with those fields by unfolding the record's name.
-/
import Idealize.ShloMosaic.PureOps.Ideal
import Idealize.ShloMosaic.Lib.ValueIdx
import Idealize.ShloMosaic.Lib.ValueIdxRank1

noncomputable section

open scoped BigOperators

namespace Cert.LibGS

open Idealize.ShloMosaic Idealize.ShloMosaic.ValueIdx

/-! ## The records -/

/-- The scalar segment sum's dimension numbers: operand `[N]`, indices `[E, 1]`, updates `[E]`. -/
abbrev vecScatterDims (N E : Nat) (wf : ScatterDims.WF ⟨1, ![N]⟩ ⟨2, ![E, 1]⟩ ⟨1, ![E]⟩ [] [0] [0] 1) :
    ScatterDims ⟨1, ![N]⟩ ⟨2, ![E, 1]⟩ ⟨1, ![E]⟩ where
  updateWindowDims := []
  insertedWindowDims := [0]
  scatterDimsToOperandDims := [0]
  indexVectorDim := 1
  wf := wf

/-- The row segment sum's dimension numbers: operand `[N, C]`, indices `[E, 1]`, updates `[E, C]`. -/
abbrev rowScatterDims (N E C : Nat) (wf : ScatterDims.WF ⟨2, ![N, C]⟩ ⟨2, ![E, 1]⟩ ⟨2, ![E, C]⟩ [1] [0] [0] 1) :
    ScatterDims ⟨2, ![N, C]⟩ ⟨2, ![E, 1]⟩ ⟨2, ![E, C]⟩ where
  updateWindowDims := [1]
  insertedWindowDims := [0]
  scatterDimsToOperandDims := [0]
  indexVectorDim := 1
  wf := wf

/-- The row lookup's dimension numbers: table `[N, C]`, start indices `[E, 1]`, result `[E, C]`. -/
abbrev rowGatherDims (N E C : Nat)
    (wf : GatherDims.WF ⟨2, ![N, C]⟩ ⟨2, ![E, 1]⟩ ⟨2, ![E, C]⟩ [1] [0] [] [0] [] 1 ![1, C]) :
    GatherDims ⟨2, ![N, C]⟩ ⟨2, ![E, 1]⟩ ⟨2, ![E, C]⟩ where
  offsetDims := [1]
  collapsedSliceDims := [0]
  operandBatchingDims := []
  startIndicesBatchingDims := []
  startIndexMap := [0]
  indexVectorDim := 1
  sliceSizes := ![1, C]
  wf := wf

/-! ## When an update lands on an element -/

/-- An update lands on operand element `i` exactly when, on every axis, its start plus its window coordinate is
    `i`'s coordinate. -/
theorem resultIdx?_eq_some_iff {s si u : Shape} (d : ScatterDims s si u) {w : Nat} (j : u.Idx) (idx : IVec si w)
    (i : s.Idx) :
    d.resultIdx? j idx = some i ↔ ∀ a, d.start j idx a + (d.window j a : ℤ) = ((i a).val : ℤ) := by
  unfold ScatterDims.resultIdx?
  constructor
  · intro h
    split at h
    · rename_i H
      intro a
      have h1 := congrFun (Option.some.inj h) a
      have h2 := congrArg Fin.val h1
      simp only at h2
      have := H a
      omega
    · exact absurd h (by simp)
  · intro h
    have H : ∀ a, 0 ≤ d.start j idx a + (d.window j a : ℤ) ∧ d.start j idx a + (d.window j a : ℤ) < s.size a := by
      intro a
      have := h a
      have := (i a).isLt
      omega
    rw [dif_pos H]
    congr 1
    funext a
    apply Fin.ext
    have := h a
    simp only
    omega

/-! ## The scalar segment sum -/

section Vec
variable {N E w : Nat} (wf : ScatterDims.WF ⟨1, ![N]⟩ ⟨2, ![E, 1]⟩ ⟨1, ![E]⟩ [] [0] [0] 1)

/-- Update `j` starts at the word `idx[j, 0]`, read signed. -/
theorem vec_start (idx : IVec ⟨2, ![E, 1]⟩ w) (j : (⟨1, ![E]⟩ : Shape).Idx) :
    (vecScatterDims N E wf).start j idx 0 = (idx (ix2 (j 0) 0)).toInt := by
  unfold ScatterDims.start
  rw [dif_pos (show (0 : Fin 1) ∈ (vecScatterDims N E wf).scatterDimsToOperandDims from List.mem_singleton.mpr rfl)]
  have hsi : (vecScatterDims N E wf).siIdx j ⟨List.idxOf (0 : Fin 1) (vecScatterDims N E wf).scatterDimsToOperandDims,
      List.idxOf_lt_length_iff.2 (List.mem_singleton.mpr rfl)⟩ = ix2 (j 0) 0 := by
    funext b; refine Fin.ext ?_
    match b with
    | ⟨0, _⟩ => rfl
    | ⟨1, _⟩ => rfl
  rw [hsi]
  rfl

/-- The operand's one axis is inserted: no window coordinate. -/
theorem vec_window (j : (⟨1, ![E]⟩ : Shape).Idx) : (vecScatterDims N E wf).window j 0 = 0 := by
  unfold ScatterDims.window
  rw [dif_neg]
  show (0 : Fin 1) ∉ (List.finRange 1).filter (fun a => a ∉ [(0 : Fin 1)])
  decide

/-- Update `j` lands on element `s` exactly when its start word, read signed, is `s`. -/
theorem vec_resultIdx?_iff (idx : IVec ⟨2, ![E, 1]⟩ w) (j : (⟨1, ![E]⟩ : Shape).Idx) (s : Fin N) :
    (vecScatterDims N E wf).resultIdx? j idx = some (ix1 s) ↔ (idx (ix2 (j 0) 0)).toInt = (s.val : ℤ) := by
  rw [resultIdx?_eq_some_iff]
  constructor
  · intro h
    have h0 := h 0
    rw [vec_start, vec_window] at h0
    have h1 : (idx (ix2 (j 0) 0)).toInt + ((0 : ℕ) : ℤ) = (s.val : ℤ) := h0
    simpa using h1
  · intro h a
    obtain rfl : a = 0 := Subsingleton.elim _ _
    rw [vec_start, vec_window]
    show (idx (ix2 (j 0) 0)).toInt + ((0 : ℕ) : ℤ) = (s.val : ℤ)
    simpa using h

end Vec

/-- THE SCALAR SEGMENT SUM READ AT `s`: the operand's entry plus the updates of the edges whose start word, read
    signed, is `s`. -/
theorem scatterAdd_vec_apply {N E w : Nat} (wf : ScatterDims.WF ⟨1, ![N]⟩ ⟨2, ![E, 1]⟩ ⟨1, ![E]⟩ [] [0] [0] 1)
    (x : (⟨1, ![N]⟩ : Shape).Idx → EReal) (idx : IVec ⟨2, ![E, 1]⟩ w) (upd : (⟨1, ![E]⟩ : Shape).Idx → EReal)
    (s : Fin N) :
    Ideal.hostScatterAdd (vecScatterDims N E wf) x idx upd (ix1 s)
      = x (ix1 s) + ∑ e ∈ Finset.univ.filter (fun e : Fin E => (idx (ix2 e 0)).toInt = (s.val : ℤ)), upd (ix1 e) := by
  unfold Ideal.hostScatterAdd
  congr 1
  rw [Finset.sum_filter, Finset.sum_filter, ← Equiv.sum_comp (idxEquiv1 (n := E)).symm]
  refine Finset.sum_congr rfl fun e _ => ?_
  exact if_congr (vec_resultIdx?_iff wf idx (ix1 e) s) rfl rfl

/-! ## The row segment sum -/

section Rows
variable {N E C w : Nat} (wf : ScatterDims.WF ⟨2, ![N, C]⟩ ⟨2, ![E, 1]⟩ ⟨2, ![E, C]⟩ [1] [0] [0] 1)

/-- On the row axis update `j` starts at the word `idx[j₀, 0]`, read signed … -/
theorem rows_start0 (idx : IVec ⟨2, ![E, 1]⟩ w) (j : (⟨2, ![E, C]⟩ : Shape).Idx) :
    (rowScatterDims N E C wf).start j idx 0 = (idx (ix2 (j 0) 0)).toInt := by
  unfold ScatterDims.start
  rw [dif_pos (show (0 : Fin 2) ∈ (rowScatterDims N E C wf).scatterDimsToOperandDims from List.mem_singleton.mpr rfl)]
  have hsi : (rowScatterDims N E C wf).siIdx j ⟨List.idxOf (0 : Fin 2) (rowScatterDims N E C wf).scatterDimsToOperandDims,
      List.idxOf_lt_length_iff.2 (List.mem_singleton.mpr rfl)⟩ = ix2 (j 0) 0 := by
    funext b; refine Fin.ext ?_
    match b with
    | ⟨0, _⟩ => rfl
    | ⟨1, _⟩ => rfl
  rw [hsi]
  rfl

/-- … and on the column axis at `0`. -/
theorem rows_start1 (idx : IVec ⟨2, ![E, 1]⟩ w) (j : (⟨2, ![E, C]⟩ : Shape).Idx) :
    (rowScatterDims N E C wf).start j idx 1 = 0 := by
  unfold ScatterDims.start
  rw [dif_neg]
  show (1 : Fin 2) ∉ [(0 : Fin 2)]
  decide

/-- The row axis is inserted: no window coordinate there … -/
theorem rows_window0 (j : (⟨2, ![E, C]⟩ : Shape).Idx) : (rowScatterDims N E C wf).window j 0 = 0 := by
  unfold ScatterDims.window
  rw [dif_neg]
  show (0 : Fin 2) ∉ (List.finRange 2).filter (fun a => a ∉ [(0 : Fin 2)])
  decide

/-- … and the column axis carries the update's column. -/
theorem rows_window1 (j : (⟨2, ![E, C]⟩ : Shape).Idx) : (rowScatterDims N E C wf).window j 1 = (j 1).val := by
  unfold ScatterDims.window
  have hm : (1 : Fin 2) ∈ (rowScatterDims N E C wf).sKept := by
    show (1 : Fin 2) ∈ (List.finRange 2).filter (fun a => a ∉ [(0 : Fin 2)])
    decide
  rw [dif_pos hm]
  rfl

/-- Update `j` lands on element `(s, k)` exactly when its start word, read signed, is `s` and its column is `k`. -/
theorem rows_resultIdx?_iff (idx : IVec ⟨2, ![E, 1]⟩ w) (j : (⟨2, ![E, C]⟩ : Shape).Idx) (s : Fin N) (k : Fin C) :
    (rowScatterDims N E C wf).resultIdx? j idx = some (ix2 s k)
      ↔ (idx (ix2 (j 0) 0)).toInt = (s.val : ℤ) ∧ j 1 = k := by
  rw [resultIdx?_eq_some_iff]
  constructor
  · intro h
    have h0 := h 0
    have h1 := h 1
    rw [rows_start0, rows_window0] at h0
    rw [rows_start1, rows_window1] at h1
    have h0' : (idx (ix2 (j 0) 0)).toInt + ((0 : ℕ) : ℤ) = (s.val : ℤ) := h0
    have h1' : (0 : ℤ) + (((j 1).val : ℕ) : ℤ) = (k.val : ℤ) := h1
    refine ⟨by simpa using h0', Fin.ext ?_⟩
    omega
  · rintro ⟨h0, h1⟩ a
    match a with
    | ⟨0, _⟩ =>
      show (rowScatterDims N E C wf).start j idx 0 + (((rowScatterDims N E C wf).window j 0 : ℕ) : ℤ) = (s.val : ℤ)
      rw [rows_start0, rows_window0]
      simpa using h0
    | ⟨1, _⟩ =>
      show (rowScatterDims N E C wf).start j idx 1 + (((rowScatterDims N E C wf).window j 1 : ℕ) : ℤ) = (k.val : ℤ)
      rw [rows_start1, rows_window1, h1]
      simp

end Rows

/-- THE ROW SEGMENT SUM READ AT `(s, k)`: the operand's entry plus the updates' entries `(e, k)` of the edges whose
    start word, read signed, is `s`. -/
theorem scatterAdd_rows_apply {N E C w : Nat}
    (wf : ScatterDims.WF ⟨2, ![N, C]⟩ ⟨2, ![E, 1]⟩ ⟨2, ![E, C]⟩ [1] [0] [0] 1)
    (x : (⟨2, ![N, C]⟩ : Shape).Idx → EReal) (idx : IVec ⟨2, ![E, 1]⟩ w) (upd : (⟨2, ![E, C]⟩ : Shape).Idx → EReal)
    (s : Fin N) (k : Fin C) :
    Ideal.hostScatterAdd (rowScatterDims N E C wf) x idx upd (ix2 s k)
      = x (ix2 s k)
        + ∑ e ∈ Finset.univ.filter (fun e : Fin E => (idx (ix2 e 0)).toInt = (s.val : ℤ)), upd (ix2 e k) := by
  unfold Ideal.hostScatterAdd
  congr 1
  rw [Finset.sum_filter, Finset.sum_filter, sum_idx2]
  refine Finset.sum_congr rfl fun e _ => ?_
  by_cases hP : (idx (ix2 e 0)).toInt = (s.val : ℤ)
  · rw [if_pos hP, Finset.sum_eq_single k]
    · exact if_pos ((rows_resultIdx?_iff wf idx (ix2 e k) s k).2 ⟨hP, rfl⟩)
    · intro b _ hb
      exact if_neg fun h => hb ((rows_resultIdx?_iff wf idx (ix2 e b) s k).1 h).2
    · intro h
      exact absurd (Finset.mem_univ k) h
  · rw [if_neg hP]
    exact Finset.sum_eq_zero fun b _ => if_neg fun h => hP ((rows_resultIdx?_iff wf idx (ix2 e b) s k).1 h).1

/-! ## The row lookup -/

/-- THE ROW LOOKUP READ AT `(e, k)`: the table's entry `(r, k)`, `r` the start word of `e` read signed, a negative
    word sent to `0`, clipped to the last row. -/
theorem gather_rows_apply {α : Type} {N E C w : Nat} (hN : 0 < N)
    (wf : GatherDims.WF ⟨2, ![N, C]⟩ ⟨2, ![E, 1]⟩ ⟨2, ![E, C]⟩ [1] [0] [] [0] [] 1 ![1, C])
    (x : (⟨2, ![N, C]⟩ : Shape).Idx → α) (idx : IVec ⟨2, ![E, 1]⟩ w) (e : Fin E) (k : Fin C) :
    Host.gather (rowGatherDims N E C wf) x idx (ix2 e k)
      = x (ix2 ⟨min (idx (ix2 e 0)).toInt.toNat (N - 1), by omega⟩ k) := by
  unfold Host.gather
  congr 1
  funext a
  refine Fin.ext ?_
  match a with
  | ⟨0, _⟩ =>
    show (rowGatherDims N E C wf).start (ix2 e k) idx 0 + (rowGatherDims N E C wf).batchCoord (ix2 e k) 0
      + (rowGatherDims N E C wf).offCoord (ix2 e k) 0 = min (idx (ix2 e 0)).toInt.toNat (N - 1)
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowGatherDims N E C wf).startIndexMap from List.mem_singleton.mpr rfl)]
    have hsi : (rowGatherDims N E C wf).siIdx (ix2 e k) ⟨List.idxOf (0 : Fin 2) (rowGatherDims N E C wf).startIndexMap,
        List.idxOf_lt_length_iff.2 (List.mem_singleton.mpr rfl)⟩ = ix2 e 0 := by
      funext b; refine Fin.ext ?_
      match b with
      | ⟨0, _⟩ => rfl
      | ⟨1, _⟩ => rfl
    rw [hsi]
    rfl
  | ⟨1, _⟩ =>
    show (rowGatherDims N E C wf).start (ix2 e k) idx 1 + (rowGatherDims N E C wf).batchCoord (ix2 e k) 1
      + (rowGatherDims N E C wf).offCoord (ix2 e k) 1 = k.val
    rw [GatherDims.batchCoord_eq_zero _ _ _ List.not_mem_nil]
    have hs : (rowGatherDims N E C wf).start (ix2 e k) idx 1 = 0 := by
      unfold GatherDims.start
      rw [dif_neg]
      show (1 : Fin 2) ∉ [(0 : Fin 2)]
      decide
    have ho : (rowGatherDims N E C wf).offCoord (ix2 e k) 1 = k.val := by
      unfold GatherDims.offCoord
      have hm : (1 : Fin 2) ∈ (rowGatherDims N E C wf).sKept := by
        show (1 : Fin 2) ∈ (List.finRange 2).filter (fun a => a ∉ [(0 : Fin 2)] ++ [])
        decide
      rw [dif_pos hm]
      rfl
    rw [hs, ho]
    omega

end Cert.LibGS

end
-- ==== Proof.Bridge.lean ====
/-
  The two results agree on finite data.
-/
import proofs.«177310_j64639257805082_1_alg».proof.Proof.Spec
import proofs.«177310_j64639257805082_1_alg».proof.Proof.LibGS
import Idealize.ShloMosaic.PureOps.Ideal.Laws
import Idealize.ShloMosaic.Lib.ValueIdx
import Idealize.ShloMosaic.Lib.ValueLayout
import Idealize.ShloMosaic.Lib.Pipeline.Value
import Idealize.ShloMosaic.Lib.IdealHost
import Idealize.ShloMosaic.Lib.StackMember

noncomputable section

open scoped BigOperators

namespace Cert.Gcn

open Idealize.ShloMosaic Idealize.ShloMosaic.ValueIdx Cert.ReferenceIdeal

variable [Cert.ReferenceIdeal.Facts]

/-- The row a message reads: its start word, read signed, a negative word sent to row 0, clipped to the last row. -/
def row (si : (⟨S1700000x1, .i32⟩ : BufTy).Contents (Elt Ideal)) (e : Fin 1700000) : Fin 100000 :=
  ⟨min (si (ix2 e 0)).toInt.toNat (100000 - 1), by omega⟩

theorem zeroS_apply (i : S_.Idx) : zeroS (F := Ideal) i = 0 := by
  unfold zeroS
  rw [constant_apply, Ideal.ofBits_zero_f32]

theorem zerosX_apply (i : S100000x128.Idx) : zerosX (F := Ideal) i = 0 := by
  unfold zerosX
  rw [broadcastInDim_scalar_apply, zeroS_apply]

theorem normB_apply (n : (⟨S1700000, .f32⟩ : BufTy).Contents (Elt Ideal)) (e : Fin 1700000) (k : Fin 128) :
    normB (F := Ideal) n (ix2 e k) = n (ix1 e) := by
  unfold normB
  rw [broadcastInDim_apply _ _ _ (ix2 e k) (ix2 e 0), broadcastInDim_apply _ _ _ (ix2 e 0) (ix1 e)]
  · intro a
    obtain rfl : a = 0 := Subsingleton.elim _ _
    rfl
  · intro a
    match a with
    | ⟨0, _⟩ => rfl
    | ⟨1, _⟩ => rfl

theorem biasB_apply (b : (⟨S128, .f32⟩ : BufTy).Contents (Elt Ideal)) (s : Fin 100000) (j : Fin 128) :
    biasB (F := Ideal) b (ix2 s j) = b (ix1 j) := by
  unfold biasB
  rw [broadcastInDim_apply _ _ _ (ix2 s j) (ix2 0 j), broadcastInDim_apply _ _ _ (ix2 0 j) (ix1 j)]
  · intro a
    obtain rfl : a = 0 := Subsingleton.elim _ _
    rfl
  · intro a
    match a with
    | ⟨0, _⟩ => rfl
    | ⟨1, _⟩ => rfl

theorem hd_eq : scatter_S100000x128_S1700000x1_S1700000x128_1_0_0_1
      = Cert.LibGS.rowScatterDims 100000 1700000 128 Facts₀.scatter_S100000x128_S1700000x1_S1700000x128_1_0_0_1_wf := rfl
theorem hg_eq : gather_S100000x128_S1700000x1_S1700000x128_1_0_n_n_0_1_1128
      = Cert.LibGS.rowGatherDims 100000 1700000 128 Facts₀.gather_S100000x128_S1700000x1_S1700000x128_1_0_n_n_0_1_1128_wf := rfl

theorem scatterRows_apply (x : (⟨S100000x128, .f32⟩ : BufTy).Contents (Elt Ideal))
    (di : (⟨S1700000x1, .i32⟩ : BufTy).Contents (Elt Ideal))
    (upd : (⟨S1700000x128, .f32⟩ : BufTy).Contents (Elt Ideal)) (s : Fin 100000) (k : Fin 128) :
    Host.scatterAdd (F := Ideal) (φ := .f32) scatter_S100000x128_S1700000x1_S1700000x128_1_0_0_1 x di upd (ix2 s k)
      = x (ix2 s k) + ∑ e ∈ Finset.univ.filter (fun e : Fin 1700000 => (di (ix2 e 0)).toInt = (s.val : ℤ)), upd (ix2 e k) := by
  rw [hd_eq]
  exact Cert.LibGS.scatterAdd_rows_apply _ x di upd s k

theorem gatherRows_apply (t : (⟨S100000x128, .f32⟩ : BufTy).Contents (Elt Ideal))
    (si : (⟨S1700000x1, .i32⟩ : BufTy).Contents (Elt Ideal)) (e : Fin 1700000) (k : Fin 128) :
    Host.gather gather_S100000x128_S1700000x1_S1700000x128_1_0_n_n_0_1_1128 t si (ix2 e k) = t (ix2 (row si e) k) := by
  rw [hg_eq]
  exact Cert.LibGS.gather_rows_apply (by norm_num) _ t si e k

/-- MESSAGE PASSING READ AT (s, k): the sum over the messages into s of source entry times weight. -/
theorem segsum_apply (si di : (⟨S1700000x1, .i32⟩ : BufTy).Contents (Elt Ideal))
    (n : (⟨S1700000, .f32⟩ : BufTy).Contents (Elt Ideal)) (t : (⟨S100000x128, .f32⟩ : BufTy).Contents (Elt Ideal))
    (s : Fin 100000) (k : Fin 128) :
    segsum (F := Ideal) si di n t (ix2 s k)
      = 0 + ∑ e ∈ Finset.univ.filter (fun e : Fin 1700000 => (di (ix2 e 0)).toInt = (s.val : ℤ)),
          t (ix2 (row si e) k) * n (ix1 e) := by
  unfold segsum
  rw [scatterRows_apply, zerosX_apply]
  refine congrArg _ (Finset.sum_congr rfl fun e _ => ?_)
  rw [mulf_apply, normB_apply, gatherRows_apply]

theorem hdot_eq : dot_S100000x128_S128x128_S100000x128_1_0_0_1_n_n = DotDims.plain 100000 128 128 := rfl

/-- The product by the weights read at (r, j). -/
theorem dot_apply (h : (⟨S100000x128, .f32⟩ : BufTy).Contents (Elt Ideal)) (W : (⟨S128x128, .f32⟩ : BufTy).Contents (Elt Ideal))
    (r : Fin 100000) (j : Fin 128) :
    Host.dotGeneral (F := Ideal) (φ₁ := .f32) (φ₂ := .f32) dot_S100000x128_S128x128_S100000x128_1_0_0_1_n_n none h W (ix2 r j)
      = ∑ k : Fin 128, h (ix2 r k) * W (ix2 k j) := by
  rw [hdot_eq]
  exact StackMember.dotGeneral_plain_apply none h W r j

/-! ## Real-valued extended reals -/

/-- A finite sum of reals, as an extended real. -/
theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- Message passing is linear: over the reals the weights may be applied before or after. -/
theorem linear_swap {ι : Type} (s : Finset ι) (a : ι → Fin 128 → ℝ) (w : Fin 128 → ℝ) (n : ι → ℝ) :
    ∑ k : Fin 128, ((0 : EReal) + ∑ e ∈ s, (a e k : EReal) * (n e : EReal)) * (w k : EReal)
      = 0 + ∑ e ∈ s, (∑ k : Fin 128, (a e k : EReal) * (w k : EReal)) * (n e : EReal) := by
  simp only [zero_add, ← EReal.coe_mul, ← coe_sum]
  refine congrArg _ ?_
  simp only [Finset.sum_mul]
  rw [Finset.sum_comm]
  refine Finset.sum_congr rfl fun e _ => Finset.sum_congr rfl fun k _ => ?_
  ring

/-- The reference's layer read at (s, j). -/
theorem layerR_apply (si di : (⟨S1700000x1, .i32⟩ : BufTy).Contents (Elt Ideal))
    (n : (⟨S1700000, .f32⟩ : BufTy).Contents (Elt Ideal)) (h : (⟨S100000x128, .f32⟩ : BufTy).Contents (Elt Ideal))
    (W : (⟨S128x128, .f32⟩ : BufTy).Contents (Elt Ideal)) (b : (⟨S128, .f32⟩ : BufTy).Contents (Elt Ideal))
    (s : Fin 100000) (j : Fin 128) :
    layerR (F := Ideal) si di n h W b (ix2 s j)
      = max ((0 + ∑ e ∈ Finset.univ.filter (fun e : Fin 1700000 => (di (ix2 e 0)).toInt = (s.val : ℤ)),
          (∑ k : Fin 128, h (ix2 (row si e) k) * W (ix2 k j)) * n (ix1 e)) + b (ix1 j)) 0 := by
  unfold layerR
  rw [maximumf_apply, addf_apply, zerosX_apply, biasB_apply, segsum_apply]
  refine congrArg (fun z => max ((0 + z) + b (ix1 j)) 0) (Finset.sum_congr rfl fun e _ => ?_)
  rw [dot_apply]

/-- The kernel's layer read at (s, j). -/
theorem layerK_apply (si di : (⟨S1700000x1, .i32⟩ : BufTy).Contents (Elt Ideal))
    (n : (⟨S1700000, .f32⟩ : BufTy).Contents (Elt Ideal)) (h : (⟨S100000x128, .f32⟩ : BufTy).Contents (Elt Ideal))
    (W : (⟨S128x128, .f32⟩ : BufTy).Contents (Elt Ideal)) (c : (⟨S1x128, .f32⟩ : BufTy).Contents (Elt Ideal))
    (s : Fin 100000) (j : Fin 128) :
    layerK si di n h W c (ix2 s j)
      = max ((∑ k : Fin 128, (0 + ∑ e ∈ Finset.univ.filter (fun e : Fin 1700000 => (di (ix2 e 0)).toInt = (s.val : ℤ)),
          h (ix2 (row si e) k) * n (ix1 e)) * W (ix2 k j)) + c (ix2 0 j)) 0 := by
  unfold layerK mbr
  show max ((∑ k : Fin 128, segsum (F := Ideal) si di n h (ix2 s k) * W (ix2 k j)) + c (ix2 0 j)) 0 = _
  refine congrArg (fun z => max (z + c (ix2 0 j)) 0) (Finset.sum_congr rfl fun k _ => ?_)
  rw [segsum_apply]

/-- THE TWO LAYERS AGREE on real-valued features, weights and message weights, the biases agreeing. -/
theorem layer_eq (si di : (⟨S1700000x1, .i32⟩ : BufTy).Contents (Elt Ideal))
    (n : (⟨S1700000, .f32⟩ : BufTy).Contents (Elt Ideal)) (h : (⟨S100000x128, .f32⟩ : BufTy).Contents (Elt Ideal))
    (W : (⟨S128x128, .f32⟩ : BufTy).Contents (Elt Ideal)) (b : (⟨S128, .f32⟩ : BufTy).Contents (Elt Ideal))
    (c : (⟨S1x128, .f32⟩ : BufTy).Contents (Elt Ideal))
    (hc : ∀ j : Fin 128, c (ix2 0 j) = b (ix1 j))
    (hn : ∀ i, ∃ r : ℝ, n i = (r : EReal)) (hh : ∀ i, ∃ r : ℝ, h i = (r : EReal)) (hW : ∀ i, ∃ r : ℝ, W i = (r : EReal)) :
    layerK si di n h W c = layerR (F := Ideal) si di n h W b := by
  funext i
  obtain ⟨s, j, rfl⟩ : ∃ (s : Fin 100000) (j : Fin 128), i = ix2 s j := ⟨i 0, i 1, eq_ix2 i⟩
  rw [layerK_apply, layerR_apply, hc]
  choose nr hn using hn
  choose hr hh using hh
  choose Wr hW using hW
  simp only [hn, hh, hW]
  rw [linear_swap _ (fun e k => hr (ix2 (row si e) k)) (fun k => Wr (ix2 k j)) (fun e => nr (ix1 e))]

/-! ## The message weights are real -/

theorem hv_eq : scatter_S100000_S1700000x1_S1700000_n_0_0_1
    = Cert.LibGS.vecScatterDims 100000 1700000 Facts₀.scatter_S100000_S1700000x1_S1700000_n_0_0_1_wf := rfl

theorem oneS_apply (i : S_.Idx) : oneS (F := Ideal) i = 1 := by
  unfold oneS
  rw [constant_apply, Ideal.ofBits_one_f32]

theorem scatterVec_apply (x : (⟨S100000, .f32⟩ : BufTy).Contents (Elt Ideal))
    (di : (⟨S1700000x1, .i32⟩ : BufTy).Contents (Elt Ideal))
    (upd : (⟨S1700000, .f32⟩ : BufTy).Contents (Elt Ideal)) (s : Fin 100000) :
    Host.scatterAdd (F := Ideal) (φ := .f32) scatter_S100000_S1700000x1_S1700000_n_0_0_1 x di upd (ix1 s)
      = x (ix1 s) + ∑ e ∈ Finset.univ.filter (fun e : Fin 1700000 => (di (ix2 e 0)).toInt = (s.val : ℤ)), upd (ix1 e) := by
  rw [hv_eq]
  exact Cert.LibGS.scatterAdd_vec_apply _ x di upd s

/-- The degree of a node is a count, a real number. -/
theorem deg_real (x1 : (⟨S2x1600000, .i32⟩ : BufTy).Contents (Elt Ideal)) (s : Fin 100000) :
    ∃ r : ℝ, deg (F := Ideal) x1 (ix1 s) = (r : EReal) := by
  unfold deg
  rw [scatterVec_apply, broadcastInDim_scalar_apply, zeroS_apply, zero_add]
  refine ⟨∑ e ∈ Finset.univ.filter (fun e : Fin 1700000 => (dstIdx (F := Ideal) x1 (ix2 e 0)).toInt = (s.val : ℤ)), (1 : ℝ), ?_⟩
  rw [coe_sum]
  refine Finset.sum_congr rfl fun e _ => ?_
  rw [broadcastInDim_scalar_apply, oneS_apply, EReal.coe_one]

theorem hostRsqrt_apply {s : Shape} (x : FVec Ideal s .f32) (i : s.Idx) :
    Host.rsqrt (F := Ideal) x i = Ideal.rsqrt (x i) := rfl

/-- On a real degree the selected value is real: the inverse square root where the degree is positive, else zero. -/
theorem select_rsqrt_real (d : ℝ) :
    ∃ r : ℝ, Scalar.select (Ideal.cmp .ogt (d : EReal) 0) (Ideal.rsqrt (d : EReal)) (0 : EReal) = (r : EReal) := by
  by_cases h0 : (0 : EReal) < (d : EReal)
  · have hc : Ideal.cmp .ogt (d : EReal) 0 = 1#1 := by
      unfold Ideal.cmp
      simp [h0]
    have hd0 : (0 : ℝ) < d := by exact_mod_cast h0
    rw [hc, select_one, Ideal.rsqrt_coe, if_neg (not_lt.2 hd0.le), if_neg hd0.ne']
    exact ⟨_, rfl⟩
  · have hc : Ideal.cmp .ogt (d : EReal) 0 = 0#1 := by
      unfold Ideal.cmp
      simp [h0]
    rw [hc, select_zero]
    exact ⟨0, rfl⟩

/-- The inverse square root of the degree, or zero: a real number. -/
theorem dis_real (x1 : (⟨S2x1600000, .i32⟩ : BufTy).Contents (Elt Ideal)) (i : S100000.Idx) :
    ∃ r : ℝ, dis (F := Ideal) x1 i = (r : EReal) := by
  obtain ⟨s, rfl⟩ : ∃ s : Fin 100000, i = ix1 s := ⟨i 0, eq_ix1 i⟩
  obtain ⟨d, hd⟩ := deg_real x1 s
  unfold dis
  rw [select_apply, cmpf_apply, hostRsqrt_apply, broadcastInDim_scalar_apply, broadcastInDim_scalar_apply, id,
    zeroS_apply, hd]
  exact select_rsqrt_real d

/-- THE MESSAGE WEIGHTS ARE REAL: a product of two entries of the real vector above. -/
theorem norm_real (x1 : (⟨S2x1600000, .i32⟩ : BufTy).Contents (Elt Ideal)) (i : S1700000.Idx) :
    ∃ r : ℝ, norm (F := Ideal) x1 i = (r : EReal) := by
  unfold norm
  rw [mulf_apply]
  unfold Host.gather
  obtain ⟨a, ha⟩ := dis_real x1 (gather_S100000_S1700000x1_S1700000_n_0_n_n_0_1_1.operandIdx i (srcIdx (F := Ideal) x1))
  obtain ⟨b, hb⟩ := dis_real x1 (gather_S100000_S1700000x1_S1700000_n_0_n_n_0_1_1.operandIdx i (dstIdxW (F := Ideal) x1))
  rw [ha, hb]
  exact ⟨a * b, (EReal.coe_mul a b).symm⟩

/-! ## Sums, products and maxima of reals are real -/

theorem real_add {x y : EReal} (hx : ∃ r : ℝ, x = (r : EReal)) (hy : ∃ r : ℝ, y = (r : EReal)) :
    ∃ r : ℝ, x + y = (r : EReal) := by
  obtain ⟨a, rfl⟩ := hx
  obtain ⟨b, rfl⟩ := hy
  exact ⟨a + b, (EReal.coe_add a b).symm⟩

theorem real_mul {x y : EReal} (hx : ∃ r : ℝ, x = (r : EReal)) (hy : ∃ r : ℝ, y = (r : EReal)) :
    ∃ r : ℝ, x * y = (r : EReal) := by
  obtain ⟨a, rfl⟩ := hx
  obtain ⟨b, rfl⟩ := hy
  exact ⟨a * b, (EReal.coe_mul a b).symm⟩

theorem real_sum {ι : Type} (s : Finset ι) (f : ι → EReal) (hf : ∀ i, ∃ r : ℝ, f i = (r : EReal)) :
    ∃ r : ℝ, ∑ i ∈ s, f i = (r : EReal) := by
  choose g hg using hf
  refine ⟨∑ i ∈ s, g i, ?_⟩
  rw [coe_sum]
  exact Finset.sum_congr rfl fun i _ => hg i

theorem real_max_zero {x : EReal} (hx : ∃ r : ℝ, x = (r : EReal)) : ∃ r : ℝ, max x 0 = (r : EReal) := by
  obtain ⟨a, rfl⟩ := hx
  rcases le_total (a : EReal) 0 with h | h
  · exact ⟨0, by rw [max_eq_right h, EReal.coe_zero]⟩
  · exact ⟨a, max_eq_left h⟩

/-- A LAYER OF REAL DATA IS REAL. -/
theorem layerR_real (si di : (⟨S1700000x1, .i32⟩ : BufTy).Contents (Elt Ideal))
    (n : (⟨S1700000, .f32⟩ : BufTy).Contents (Elt Ideal)) (h : (⟨S100000x128, .f32⟩ : BufTy).Contents (Elt Ideal))
    (W : (⟨S128x128, .f32⟩ : BufTy).Contents (Elt Ideal)) (b : (⟨S128, .f32⟩ : BufTy).Contents (Elt Ideal))
    (hn : ∀ i, ∃ r : ℝ, n i = (r : EReal)) (hh : ∀ i, ∃ r : ℝ, h i = (r : EReal)) (hW : ∀ i, ∃ r : ℝ, W i = (r : EReal))
    (hb : ∀ i, ∃ r : ℝ, b i = (r : EReal)) (i : S100000x128.Idx) :
    ∃ r : ℝ, layerR (F := Ideal) si di n h W b i = (r : EReal) := by
  obtain ⟨s, j, rfl⟩ : ∃ (s : Fin 100000) (j : Fin 128), i = ix2 s j := ⟨i 0, i 1, eq_ix2 i⟩
  rw [layerR_apply]
  exact real_max_zero (real_add (real_add ⟨0, EReal.coe_zero.symm⟩
    (real_sum _ _ fun e => real_mul (real_sum _ _ fun k => real_mul (hh _) (hW _)) (hn _))) (hb _))

/-- THE KERNEL'S RESULT IS THE REFERENCE'S, for finite features, weights and biases (`c1 c2 c3` the biases as one-row
    tables). -/
theorem result_eq
    (x0 : (⟨S100000x128, .f32⟩ : BufTy).Contents (Elt Ideal)) (x1 : (⟨S2x1600000, .i32⟩ : BufTy).Contents (Elt Ideal))
    (x2 : (⟨S100000, .i32⟩ : BufTy).Contents (Elt Ideal)) (x3 : (⟨S128x128, .f32⟩ : BufTy).Contents (Elt Ideal))
    (x4 : (⟨S128, .f32⟩ : BufTy).Contents (Elt Ideal)) (x5 : (⟨S128x128, .f32⟩ : BufTy).Contents (Elt Ideal))
    (x6 : (⟨S128, .f32⟩ : BufTy).Contents (Elt Ideal)) (x7 : (⟨S128x128, .f32⟩ : BufTy).Contents (Elt Ideal))
    (x8 : (⟨S128, .f32⟩ : BufTy).Contents (Elt Ideal)) (x9 : (⟨S128x3, .f32⟩ : BufTy).Contents (Elt Ideal))
    (x10 : (⟨S3, .f32⟩ : BufTy).Contents (Elt Ideal))
    (c1 c2 c3 : (⟨S1x128, .f32⟩ : BufTy).Contents (Elt Ideal))
    (hc1 : ∀ j : Fin 128, c1 (ix2 0 j) = x4 (ix1 j)) (hc2 : ∀ j : Fin 128, c2 (ix2 0 j) = x6 (ix1 j))
    (hc3 : ∀ j : Fin 128, c3 (ix2 0 j) = x8 (ix1 j))
    (h0 : ∀ i, ∃ r : ℝ, x0 i = (r : EReal)) (h3 : ∀ i, ∃ r : ℝ, x3 i = (r : EReal)) (h4 : ∀ i, ∃ r : ℝ, x4 i = (r : EReal))
    (h5 : ∀ i, ∃ r : ℝ, x5 i = (r : EReal)) (h6 : ∀ i, ∃ r : ℝ, x6 i = (r : EReal)) (h7 : ∀ i, ∃ r : ℝ, x7 i = (r : EReal))
    (h8 : ∀ i, ∃ r : ℝ, x8 i = (r : EReal)) :
    resultK x0 x1 x2 x3 c1 x5 c2 x7 c3 x9 x10 = resultR (F := Ideal) x0 x1 x2 x3 x4 x5 x6 x7 x8 x9 x10 := by
  have hn := norm_real x1
  have e1 := layer_eq (srcIdx (F := Ideal) x1) (dstIdx (F := Ideal) x1) (norm (F := Ideal) x1) x0 x3 x4 c1 hc1 hn h0 h3
  have r1 := layerR_real (srcIdx (F := Ideal) x1) (dstIdx (F := Ideal) x1) (norm (F := Ideal) x1) x0 x3 x4 hn h0 h3 h4
  have e2 := layer_eq (srcIdx (F := Ideal) x1) (dstIdx (F := Ideal) x1) (norm (F := Ideal) x1) _ x5 x6 c2 hc2 hn r1 h5
  have r2 := layerR_real (srcIdx (F := Ideal) x1) (dstIdx (F := Ideal) x1) (norm (F := Ideal) x1) _ x5 x6 hn r1 h5 h6
  have e3 := layer_eq (srcIdx (F := Ideal) x1) (dstIdx (F := Ideal) x1) (norm (F := Ideal) x1) _ x7 x8 c3 hc3 hn r2 h7
  unfold resultK resultR
  rw [e1, e2, e3]

end Cert.Gcn

end
-- ==== Proof.Finite.lean ====
/-
  From the precondition to numbers: every entry of the features, of the three weight matrices and of the three biases
  is a real number (the precondition says each is smaller in absolute value than +∞).
-/
import proofs.«177310_j64639257805082_1_alg».proof.Defs
import Idealize.ShloMosaic.Lib.ReduceAll
import Idealize.ShloMosaic.Lib.ValueIdx

noncomputable section

namespace Cert.Finite

open Idealize.ShloMosaic Idealize.ShloMosaic.ValueIdx Idealize.SL.Sem Cert.KernelIdeal

/-- The shape of rank zero has exactly one index. -/
instance : Subsingleton Cert.Pre_finite_inputs.S_.Idx := ⟨fun a b => funext fun d => d.elim0⟩

/-- An extended real whose absolute value `max x (-x)` lies strictly below +∞ is a real number:
    at -∞ and at +∞ the absolute value is +∞ itself. -/
theorem real_of_abs_lt_top (x : EReal) (h : max x (-x) < ⊤) : ∃ r : ℝ, x = (r : EReal) := by
  induction x using EReal.rec with
  | bot => simp at h
  | coe r => exact ⟨r, rfl⟩
  | top => simp at h

/-- The element fact, over any shape: where the comparison `|x| < c` answers 1, `c` being the scalar of
    pattern 0x7F800000 (which denotes +∞) spread over the shape, the entry of `x` there is a real number. -/
theorem real_of_cmp {s : Shape} (hb : Cert.Pre_finite_inputs.S_.BroadcastsInDim s (![] : Fin 0 → Fin s.rank))
    (x : FVec Ideal s .f32) (i : s.Idx)
    (h : cmpf .olt (Host.absf x)
      (broadcastInDim s ![] hb (constant (F := Ideal) Cert.Pre_finite_inputs.S_ .f32 0x7F800000#32)) i = 1#1) :
    ∃ r : ℝ, x i = (r : EReal) := by
  apply real_of_abs_lt_top
  -- the comparison at index `i` is the order's `|x i| < c`, and `c` is +∞
  have h' : Ideal.cmp .olt (max (x i) (-(x i))) (Ideal.ofBits .f32 0x7F800000#32) = 1#1 := h
  have e : Ideal.ofBits .f32 0x7F800000#32 = (⊤ : EReal) := by simp [Ideal.ofBits, Ideal.ieee]
  rw [e] at h'
  by_contra hn
  simp [Ideal.cmp, hn] at h'

/-- The conjunction over all entries: where the reduction by `and`, over every axis, of the comparison
    `|x| < +∞` is 1, every entry of `x` is a real number. -/
theorem real_of_all {s : Shape} {axes : List (Fin s.rank)}
    (hb : Cert.Pre_finite_inputs.S_.BroadcastsInDim s (![] : Fin 0 → Fin s.rank))
    (hr : s.ReducesTo axes Cert.Pre_finite_inputs.S_) (hu : 0 < Cert.Pre_finite_inputs.S_.numel)
    (x : FVec Ideal s .f32) (init : IVec Cert.Pre_finite_inputs.S_ 1) (j : Cert.Pre_finite_inputs.S_.Idx)
    (h : Host.reduce IntOp.andi (cmpf .olt (Host.absf x)
      (broadcastInDim s ![] hb (constant (F := Ideal) Cert.Pre_finite_inputs.S_ .f32 0x7F800000#32))) init hr hu j = 1#1)
    (i : s.Idx) : ∃ r : ℝ, x i = (r : EReal) :=
  real_of_cmp hb x i (Host.reduce_andi_all _ init hr hu j h i)

variable [Cert.Pre_finite_inputs.Facts]

/-- Under the precondition the float arguments the three layers read hold real numbers. -/
theorem real_args (m : (ℓ : Loc nD τ sig) → Buf (Elt Ideal) ℓ) (hpre : Cert.Pre_KernelIdeal m) (c : Dev nD) :
    (∀ i, ∃ r : ℝ, m ((c.tc : Thread nD τ).loc main_arg0) i = (r : EReal))
    ∧ (∀ i, ∃ r : ℝ, m ((c.tc : Thread nD τ).loc main_arg3) i = (r : EReal))
    ∧ (∀ i, ∃ r : ℝ, m ((c.tc : Thread nD τ).loc main_arg4) i = (r : EReal))
    ∧ (∀ i, ∃ r : ℝ, m ((c.tc : Thread nD τ).loc main_arg5) i = (r : EReal))
    ∧ (∀ i, ∃ r : ℝ, m ((c.tc : Thread nD τ).loc main_arg6) i = (r : EReal))
    ∧ (∀ i, ∃ r : ℝ, m ((c.tc : Thread nD τ).loc main_arg7) i = (r : EReal))
    ∧ (∀ i, ∃ r : ℝ, m ((c.tc : Thread nD τ).loc main_arg8) i = (r : EReal)) := by
  -- the precondition at its one index: a chain of nine conjuncts, one per float argument, in the order
  -- arg0, arg3, arg4, arg5, arg6, arg7, arg8, arg9, arg10, nested to the left
  have h := congrFun (hpre c) ValueIdx.ix0
  dsimp only [Cert.Pre_finite_inputs.fn, Cert.Pre_finite_inputs.fn_part1, Cert.Pre_finite_inputs.fn_part2] at h
  -- peel the conjuncts from the outside in; those of arg10 and arg9 are not needed
  obtain ⟨h, _⟩ := IntOp.andi_eq_one.1 h
  obtain ⟨h, _⟩ := IntOp.andi_eq_one.1 h
  obtain ⟨h, h8⟩ := IntOp.andi_eq_one.1 h
  obtain ⟨h, h7⟩ := IntOp.andi_eq_one.1 h
  obtain ⟨h, h6⟩ := IntOp.andi_eq_one.1 h
  obtain ⟨h, h5⟩ := IntOp.andi_eq_one.1 h
  obtain ⟨h, h4⟩ := IntOp.andi_eq_one.1 h
  obtain ⟨h0, h3⟩ := IntOp.andi_eq_one.1 h
  exact ⟨real_of_all _ _ _ _ _ _ h0, real_of_all _ _ _ _ _ _ h3, real_of_all _ _ _ _ _ _ h4,
    real_of_all _ _ _ _ _ _ h5, real_of_all _ _ _ _ _ _ h6, real_of_all _ _ _ _ _ _ h7,
    real_of_all _ _ _ _ _ _ h8⟩

end Cert.Finite

end
-- ==== Proof.lean ====
/-
  The certificate of the three-layer graph convolution: the kernel (message passing on the host, then one fused
  `max (a · W + b) 0` block per layer on the TensorCore, three launches) against the jnp reference (weights first,
  message passing after).

  * The three frames: the two programs with launches have their frames whole; the reference's frame is its run
    with the result dropped.
  * `preserves`: the idealisation rewrote nothing.
  * `algebraic`: the kernel's result buffer holds `resultK` of the arguments (the run followed boundary by boundary, each
    launch's output array one function of the arrays it finds); the reference's holds `resultR` (its operations in
    order); and on finite features, weights and biases the two are one function, since
        (∑ₑ nₑ · h[src e, ·]) · W  =  ∑ₑ nₑ · (h · W)[src e, ·]
    over the real numbers (the message weights `nₑ` are real: `dis` is `1/√deg` of a positive count, or `0`), and the
    pooling and the classifier after the third layer are the same operations in both programs.
-/
import proofs.«177310_j64639257805082_1_alg».proof.Defs
import proofs.«177310_j64639257805082_1_alg».proof.Proof.Gen.Kernel
import proofs.«177310_j64639257805082_1_alg».proof.Proof.Gen.Kernel.Frame
import proofs.«177310_j64639257805082_1_alg».proof.Proof.Gen.KernelIdeal
import proofs.«177310_j64639257805082_1_alg».proof.Proof.Gen.KernelIdeal.Frame
import proofs.«177310_j64639257805082_1_alg».proof.Proof.Gen.ReferenceIdeal
import proofs.«177310_j64639257805082_1_alg».proof.Proof.Gen.Pre_finite_inputs
import proofs.«177310_j64639257805082_1_alg».proof.Proof.KRun
import proofs.«177310_j64639257805082_1_alg».proof.Proof.KValue
import proofs.«177310_j64639257805082_1_alg».proof.Proof.KBias
import proofs.«177310_j64639257805082_1_alg».proof.Proof.RefRun
import proofs.«177310_j64639257805082_1_alg».proof.Proof.RValue
import proofs.«177310_j64639257805082_1_alg».proof.Proof.Bridge
import proofs.«177310_j64639257805082_1_alg».proof.Proof.Finite
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference has no launch: its frame is its run, the result forgotten. -/
theorem frame_referenceIdeal : Cert.frame_ReferenceIdeal := fun m ρ _ =>
  (θ_run Cert.ReferenceIdeal.defs _ _).mono (fun _ h c => (h c).2) (Cert.ReferenceIdeal.ValueP.run (F := Ideal) m ρ)

theorem preserves : Cert.preserves_Kernel_KernelIdeal := trivial

/-- Both programs end with the same result: the kernel's run leaves `resultK` of its arguments, the reference's
    `resultR` of arguments that agree with them, and under the precondition these are equal. -/
theorem algebraic : Cert.algebraic_KernelIdeal_ReferenceIdeal := by
  intro m ρ m' ρ' hpre hagree
  refine ⟨fun c => Cert.KernelIdeal.Gen.W9 (F := Ideal) m ρ c (Proc.devRef .tc Cert.KernelIdeal.main_v90),
    Cert.KernelIdeal.GenV.run_value (F := Ideal) m ρ, ?_⟩
  refine (θ_run Cert.ReferenceIdeal.defs _ _).mono (fun _ h c => ⟨(h c).1.trans ?_, (h c).2⟩)
    (Cert.ReferenceIdeal.ValueP.run (F := Ideal) m' ρ')
  obtain ⟨a0, a1, a2, a3, a4, a5, a6, a7, a8, a9, a10⟩ := hagree c
  obtain ⟨r0, r3, r4, r5, r6, r7, r8⟩ := Cert.Finite.real_args m hpre c
  rw [Cert.ReferenceIdeal.RValue.res_eq, a0, a1, a2, a3, a4, a5, a6, a7, a8, a9, a10]
  show _ = Cert.KernelIdeal.Gen.W9 (F := Ideal) m ρ c (Proc.devRef .tc Cert.KernelIdeal.main_v90)
  rw [Cert.KernelIdeal.KV.W9_v90]
  refine (Cert.Gcn.result_eq _ _ _ _ _ _ _ _ _ _ _ _ _ _ ?_ ?_ ?_ r0 r3 r4 r5 r6 r7 r8).symm <;>
    exact fun j => Cert.KernelIdeal.KBias.biasRow_apply _ j

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
